-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_cst_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_cst_5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_cst_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel

variable [Facts]

def fn {F : FTy → Type} [FloatOps F] (main_arg0 : FVec F S2000000x128 .f32) (main_arg1 : IVec S2000000 32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  main_v3
-- ==== Kernel.lean ====
abbrev S2000000x128 : Shape := ⟨2, ![2000000, 128]⟩
abbrev S2000000 : Shape := ⟨1, ![2000000]⟩
abbrev S2000000x1 : Shape := ⟨2, ![2000000, 1]⟩
abbrev S2x1024x256 : Shape := ⟨3, ![2, 1024, 256]⟩
abbrev S2x1x1024 : Shape := ⟨3, ![2, 1, 1024]⟩
abbrev S4000x128 : Shape := ⟨2, ![4000, 128]⟩
abbrev S4000x1 : Shape := ⟨2, ![4000, 1]⟩
abbrev S1x1024x256 : Shape := ⟨3, ![1, 1024, 256]⟩
abbrev S1x1x1024 : Shape := ⟨3, ![1, 1, 1024]⟩
abbrev S1024x256 : Shape := ⟨2, ![1024, 256]⟩
abbrev S1x1024 : Shape := ⟨2, ![1, 1024]⟩
abbrev S4000x1024 : Shape := ⟨2, ![4000, 1024]⟩
abbrev S4000x256 : Shape := ⟨2, ![4000, 256]⟩
abbrev S400x1024 : Shape := ⟨2, ![400, 1024]⟩
abbrev S1024 : Shape := ⟨1, ![1024]⟩
abbrev S_ : Shape := ⟨0, ![]⟩
abbrev S1000x128 : Shape := ⟨2, ![1000, 128]⟩
abbrev S1000 : Shape := ⟨1, ![1000]⟩
abbrev S1000x1 : Shape := ⟨2, ![1000, 1]⟩
abbrev S1 : Shape := ⟨1, ![1]⟩

abbrev nBuf : Space → Nat
  | .hbm => 32
  | .vmem => 10
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2000000x1, .i32⟩
  | .hbm, ⟨3, _⟩ => ⟨S2x1024x256, .f32⟩
  | .hbm, ⟨4, _⟩ => ⟨S2x1x1024, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1x1024, .f32⟩
  | .hbm, ⟨9, _⟩ => ⟨S1024, .f32⟩
  | .hbm, ⟨10, _⟩ => ⟨S1000x128, .f32⟩
  | .hbm, ⟨11, _⟩ => ⟨S1000x128, .f32⟩
  | .hbm, ⟨12, _⟩ => ⟨S1000, .f32⟩
  | .hbm, ⟨13, _⟩ => ⟨S1000x1, .f32⟩
  | .hbm, ⟨14, _⟩ => ⟨S1000x128, .f32⟩
  | .hbm, ⟨15, _⟩ => ⟨S1000x128, .f32⟩
  | .hbm, ⟨16, _⟩ => ⟨S1000x128, .f32⟩
  | .hbm, ⟨17, _⟩ => ⟨S1000x128, .f32⟩
  | .hbm, ⟨18, _⟩ => ⟨S_, .f32⟩
  | .hbm, ⟨19, _⟩ => ⟨S1000x1, .f32⟩
  | .hbm, ⟨20, _⟩ => ⟨S1000x1, .f32⟩
  | .hbm, ⟨21, _⟩ => ⟨S1000x128, .f32⟩
  | .hbm, ⟨22, _⟩ => ⟨S1000x128, .f32⟩
  | .hbm, ⟨23, _⟩ => ⟨S1000x128, .f32⟩
  | .hbm, ⟨24, _⟩ => ⟨S_, .f32⟩
  | .hbm, ⟨25, _⟩ => ⟨S1000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S1x1024x256, .f32⟩
  | .local _ .vmem, ⟨5, _⟩ => ⟨S1x1024x256, .f32⟩
  | .local _ .vmem, ⟨6, _⟩ => ⟨S1x1x1024, .f32⟩
  | .local _ .vmem, ⟨7, _⟩ => ⟨S1x1x1024, .f32⟩
  | .local _ .vmem, ⟨8, _⟩ => ⟨S1024x256, .f32⟩
  | .local _ .vmem, ⟨9, _⟩ => ⟨S1x1024, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 250], ![false, false]⟩

def k0_cond2 (i : grid0.Coords) : BitVec 1 :=
  let arg1 : BitVec 32 := BitVec.ofNat 32 (i 1).val
  let c249_i32 : BitVec 32 := 249#32
  let v79 : BitVec 1 := Scalar.cmpi .eq arg1 c249_i32
  let v80 : BitVec 32 := Scalar.extui v79
  let c0_i32_23 : BitVec 32 := 0#32
  let v81 : BitVec 1 := Scalar.cmpi .ne v80 c0_i32_23
  v81

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000000_S2000000x1 : S2000000.ShapeCasts S2000000x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x1024_d1_w32 : S1x1024.Iotas .tc 32 [1]
  broadcasts_S4000x1_S4000x1024 : S4000x1.Broadcasts S4000x1024
  broadcasts_S1x1024_S4000x1024 : S1x1024.Broadcasts S4000x1024
  natLt_1_32 : 1 < 32
  bitsLt_bf16_f32 : FTy.bits .bf16 < FTy.bits .f32
  concatenates_S4000x128_S4000x128_S4000x256_d1 : Shape.Concatenates [S4000x128, S4000x128] S4000x256 1
  slices_S4000x1024_o0_0_S400x1024 : S4000x1024.Slices ![0, 0] S400x1024
  reduces_S400x1024_S1024 : S400x1024.Reduces [0] S1024
  shapeCasts_S1024_S1x1024 : S1024.ShapeCasts S1x1024
  slices_S4000x1024_o400_0_S400x1024 : S4000x1024.Slices ![400, 0] S400x1024
  slices_S4000x1024_o800_0_S400x1024 : S4000x1024.Slices ![800, 0] S400x1024
  slices_S4000x1024_o1200_0_S400x1024 : S4000x1024.Slices ![1200, 0] S400x1024
  slices_S4000x1024_o1600_0_S400x1024 : S4000x1024.Slices ![1600, 0] S400x1024
  slices_S4000x1024_o2000_0_S400x1024 : S4000x1024.Slices ![2000, 0] S400x1024
  slices_S4000x1024_o2400_0_S400x1024 : S4000x1024.Slices ![2400, 0] S400x1024
  slices_S4000x1024_o2800_0_S400x1024 : S4000x1024.Slices ![2800, 0] S400x1024
  slices_S4000x1024_o3200_0_S400x1024 : S4000x1024.Slices ![3200, 0] S400x1024
  slices_S4000x1024_o3600_0_S400x1024 : S4000x1024.Slices ![3600, 0] S400x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  reducesTo_S2x1024x256_S1024x256_d0 : S2x1024x256.ReducesTo [0] S1024x256
  h_S_ : 0 < S_.numel
  reducesTo_S2x1x1024_S1x1024_d0 : S2x1x1024.ReducesTo [0] S1x1024
  shapeCasts_S1x1024_S1024 : S1x1024.ShapeCasts S1024
  slices_S1024x256_S1000x128_0_0 : S1024x256.Slices ![0, 0] S1000x128
  slices_S1024x256_S1000x128_0_128 : S1024x256.Slices ![0, 128] S1000x128
  slices_S1024_S1000_0 : S1024.Slices ![0] S1000
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S_S1000x1 : S_.BroadcastsInDim S1000x1 (![] : Fin 0 → Fin S1000x1.rank)
  reducesTo_S1000x128_S1000_d1 : S1000x128.ReducesTo [1] S1000
  reducesTo_S1000_S_d0 : S1000.ReducesTo [0] S_
  shapeCasts_S_S1 : S_.ShapeCasts S1
  dot_S4000x1024_S4000x256_S1024x256_0_0_1_1_n_n_wf : DotDims.WF S4000x1024 S4000x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S2000000x128.size a
  hwx0_0 : ∀ i : grid0.Coords, EltTy.bits .f32 = 32 ∨ (Rect.block (s := S2000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S2000000x1.size a
  hwx0_1 : ∀ i : grid0.Coords, EltTy.bits .i32 = 32 ∨ (Rect.block (s := S2000000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

def dot_S4000x1024_S4000x256_S1024x256_0_0_1_1_n_n : DotDims S4000x1024 S4000x256 S1024x256 where
  lhsContracting := [0]
  rhsContracting := [0]
  lhsNonContracting := [1]
  rhsNonContracting := [1]
  lhsBatch := []
  rhsBatch := []
  wf := dot_S4000x1024_S4000x256_S1024x256_0_0_1_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000000x128 : Shape := ⟨2, ![2000000, 128]⟩
abbrev S2000000 : Shape := ⟨1, ![2000000]⟩
abbrev S_ : Shape := ⟨0, ![]⟩
abbrev S1000 : Shape := ⟨1, ![1000]⟩
abbrev S2000000x1 : Shape := ⟨2, ![2000000, 1]⟩
abbrev S1000x128 : Shape := ⟨2, ![1000, 128]⟩
abbrev S1000x1 : Shape := ⟨2, ![1000, 1]⟩
abbrev S1 : Shape := ⟨1, ![1]⟩

abbrev nBuf : Space → Nat
  | .hbm => 36
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S_, .f32⟩
  | .hbm, ⟨3, _⟩ => ⟨S2000000, .f32⟩
  | .hbm, ⟨4, _⟩ => ⟨S_, .f32⟩
  | .hbm, ⟨5, _⟩ => ⟨S1000, .f32⟩
  | .hbm, ⟨6, _⟩ => ⟨S2000000x1, .i32⟩
  | .hbm, ⟨7, _⟩ => ⟨S1000, .f32⟩
  | .hbm, ⟨8, _⟩ => ⟨S_, .f32⟩
  | .hbm, ⟨9, _⟩ => ⟨S1000x128, .f32⟩
  | .hbm, ⟨10, _⟩ => ⟨S2000000x1, .i32⟩
  | .hbm, ⟨11, _⟩ => ⟨S1000x128, .f32⟩
  | .hbm, ⟨12, _⟩ => ⟨S2000000x128, .f32⟩
  | .hbm, ⟨13, _⟩ => ⟨S_, .f32⟩
  | .hbm, ⟨14, _⟩ => ⟨S1000x128, .f32⟩
  | .hbm, ⟨15, _⟩ => ⟨S2000000x1, .i32⟩
  | .hbm, ⟨16, _⟩ => ⟨S1000x128, .f32⟩
  | .hbm, ⟨17, _⟩ => ⟨S1000x1, .f32⟩
  | .hbm, ⟨18, _⟩ => ⟨S1000x128, .f32⟩
  | .hbm, ⟨19, _⟩ => ⟨S1000x128, .f32⟩
  | .hbm, ⟨20, _⟩ => ⟨S1000x128, .f32⟩
  | .hbm, ⟨21, _⟩ => ⟨S1000x128, .f32⟩
  | .hbm, ⟨22, _⟩ => ⟨S_, .f32⟩
  | .hbm, ⟨23, _⟩ => ⟨S1000x1, .f32⟩
  | .hbm, ⟨24, _⟩ => ⟨S1000x1, .f32⟩
  | .hbm, ⟨25, _⟩ => ⟨S1000x128, .f32⟩
  | .hbm, ⟨26, _⟩ => ⟨S1000x128, .f32⟩
  | .hbm, ⟨27, _⟩ => ⟨S1000x128, .f32⟩
  | .hbm, ⟨28, _⟩ => ⟨S_, .f32⟩
  | .hbm, ⟨29, _⟩ => ⟨S1000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S1000 : S_.BroadcastsInDim S1000 (![] : Fin 0 → Fin S1000.rank)
  bcast_S2000000_S2000000x1_0 : S2000000.BroadcastsInDim S2000000x1 (![0] : Fin 1 → Fin S2000000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S_S1000x1 : S_.BroadcastsInDim S1000x1 (![] : Fin 0 → Fin S1000x1.rank)
  reducesTo_S1000x128_S1000_d1 : S1000x128.ReducesTo [1] S1000
  h_S_ : 0 < S_.numel
  reducesTo_S1000_S_d0 : S1000.ReducesTo [0] S_
  shapeCasts_S_S1 : S_.ShapeCasts S1
  scatter_S1000_S2000000x1_S2000000_n_0_0_1_wf : ScatterDims.WF S1000 S2000000x1 S2000000 [] [0] [0] 1
  scatter_S1000x128_S2000000x1_S2000000x128_1_0_0_1_wf : ScatterDims.WF S1000x128 S2000000x1 S2000000x128 [1] [0] [0] 1

variable [Facts₀]

def scatter_S1000_S2000000x1_S2000000_n_0_0_1 : ScatterDims S1000 S2000000x1 S2000000 where
  updateWindowDims := []
  insertedWindowDims := [0]
  scatterDimsToOperandDims := [0]
  indexVectorDim := 1
  wf := scatter_S1000_S2000000x1_S2000000_n_0_0_1_wf
def scatter_S1000x128_S2000000x1_S2000000x128_1_0_0_1 : ScatterDims S1000x128 S2000000x1 S2000000x128 where
  updateWindowDims := [1]
  insertedWindowDims := [0]
  scatterDimsToOperandDims := [0]
  indexVectorDim := 1
  wf := scatter_S1000x128_S2000000x1_S2000000x128_1_0_0_1_wf

class Facts : Prop extends Facts₀ where

variable [Facts]
-- ==== Proof.Pieces.lean ====
/-
  What one run of the kernel body leaves behind, as values.

  The body keeps two accumulators in scratch memory: a [1024, 256] table of weighted feature sums and a [1, 1024]
  row of counts. At the first point of each half of the grid it stores zeros into both and then adds the block's
  contribution; at every other point it adds the block's contribution to what the point before left; at the last
  point of a half it also copies both accumulators, re-laid with a leading unit axis, into the two result buffers.
  Each lemma below reads the stores the body made in one of these three cases back as ONE value: the update term
  of the block's rows and class words applied to the zero table (first point) or to the previous contents.
-/
import proofs.«431004_j56788057588437_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a half: the feature-sum table is the block's contribution added to the zero table. -/
theorem acc_A (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : cond0_0 i) (hc1 : ¬cond0_1 i)
    (x0 : Vec F S4000x128 .f32) (x1 : Vec F S4000x1 .i32) :
    sout0_A_0 c i arg2 harg2 arg3 harg3 arg4 harg4 arg5 harg5 arg6 harg6 arg7 harg7 hc0 hc1 x0 x1 = k0_pay7 x0 x1 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- The first point of a half: the counts are the block's counts added to the zero row. -/
theorem cnt_A (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : cond0_0 i) (hc1 : ¬cond0_1 i)
    (x0 : Vec F S4000x128 .f32) (x1 : Vec F S4000x1 .i32) :
    sout0_A_1 c i arg2 harg2 arg3 harg3 arg4 harg4 arg5 harg5 arg6 harg6 arg7 harg7 hc0 hc1 x0 x1 = k0_pay1 (k0_pay6 x1) (k0_pay8 x1) (k0_pay9 x1) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- A middle point: the table the point before left, plus the block's contribution. -/
theorem acc_B (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : ¬cond0_1 i)
    (x0 : Vec F S4000x128 .f32) (x1 : Vec F S4000x1 .i32) (xs0 : Vec F S1024x256 .f32) (xs1 : Vec F S1x1024 .f32) :
    sout0_B_0 c i arg2 harg2 arg3 harg3 arg4 harg4 arg5 harg5 arg6 harg6 arg7 harg7 hc0 hc1 x0 x1 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- A middle point: the counts the point before left, plus the block's counts. -/
theorem cnt_B (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : ¬cond0_1 i)
    (x0 : Vec F S4000x128 .f32) (x1 : Vec F S4000x1 .i32) (xs0 : Vec F S1024x256 .f32) (xs1 : Vec F S1x1024 .f32) :
    sout0_B_1 c i arg2 harg2 arg3 harg3 arg4 harg4 arg5 harg5 arg6 harg6 arg7 harg7 hc0 hc1 x0 x1 xs0 xs1 = k0_pay1 (k0_pay6 x1) (k0_pay8 x1) (k0_pay9 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- The last point of a half updates the table as a middle point does, -/
theorem acc_C (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i)
    (x0 : Vec F S4000x128 .f32) (x1 : Vec F S4000x1 .i32) (xs0 : Vec F S1024x256 .f32) (xs1 : Vec F S1x1024 .f32) :
    sout0_C_0 c i arg2 harg2 arg3 harg3 arg4 harg4 arg5 harg5 arg6 harg6 arg7 harg7 hc0 hc1 x0 x1 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- and the counts likewise; -/
theorem cnt_C (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i)
    (x0 : Vec F S4000x128 .f32) (x1 : Vec F S4000x1 .i32) (xs0 : Vec F S1024x256 .f32) (xs1 : Vec F S1x1024 .f32) :
    sout0_C_1 c i arg2 harg2 arg3 harg3 arg4 harg4 arg5 harg5 arg6 harg6 arg7 harg7 hc0 hc1 x0 x1 xs0 xs1 = k0_pay1 (k0_pay6 x1) (k0_pay8 x1) (k0_pay9 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- it then copies the updated table, under a leading unit axis, into the first result buffer, -/
theorem out_C_2 (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i)
    (x0 : Vec F S4000x128 .f32) (x1 : Vec F S4000x1 .i32) (xs0 : Vec F S1024x256 .f32) (xs1 : Vec F S1x1024 .f32) :
    out0_C_2 c i arg2 harg2 arg3 harg3 arg4 harg4 arg5 harg5 arg6 harg6 arg7 harg7 hc0 hc1 x0 x1 xs0 xs1 = k0_pay2 (k0_pay7 x0 x1 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1024x256) _ hz2, View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

/-- and the updated counts into the second. -/
theorem out_C_3 (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x1024x256 .f32) (harg4 : arg4.IsWhole) (arg5 : Memref sig .tc .vmem S1x1x1024 .f32) (harg5 : arg5.IsWhole) (arg6 : Memref sig .tc .vmem S1024x256 .f32) (harg6 : arg6.IsWhole) (arg7 : Memref sig .tc .vmem S1x1024 .f32) (harg7 : arg7.IsWhole) (hc0 : ¬cond0_0 i) (hc1 : cond0_1 i)
    (x0 : Vec F S4000x128 .f32) (x1 : Vec F S4000x1 .i32) (xs0 : Vec F S1024x256 .f32) (xs1 : Vec F S1x1024 .f32) :
    out0_C_3 c i arg2 harg2 arg3 harg3 arg4 harg4 arg5 harg5 arg6 harg6 arg7 harg7 hc0 hc1 x0 x1 xs0 xs1 = k0_pay3 (k0_pay1 (k0_pay6 x1) (k0_pay8 x1) (k0_pay9 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readCov_unit_zero (S := S1x1024) _ hz2, View.readAt_eq_ld, harg2.read_unread, harg3.read_unread, harg6.read_unread, harg7.read_unread, View.ld_unit_zero (S := S4000x128) hz2, View.ld_unit_zero (S := S4000x1) hz2, View.ld_unit_zero (S := S1024x256) hz2, View.ld_unit_zero (S := S1x1024) hz2]

end Cert.KernelIdeal.Pieces

end
-- ==== Proof.ClassStats.lean ====
/-
  The per-class statistics both programs compute, stated once, free of either program.

  The inputs are `x`, 2,000,000 rows of 128 features, and `t`, one 32-bit class word per row. For a class
  number `c` the weight of a row is `hot (t r) c`: one when the row's word is the word of `c`, zero
  otherwise. The three statistics are, per class `c < 1000` and feature `f < 128`,
    the sum of `x r f` over the rows of class `c`, the sum of `x r f * x r f` over them, and their number,
  each written as ONE sum over all rows with the weight as a factor. A row whose word is the word of no class
  below 1000 has weight zero for all of them: it is dropped, as a scatter drops an index outside its operand and as
  a comparison against the class numbers matches nothing.
-/
import Idealize.ShloMosaic.PureOps.Ideal
import Idealize.ShloMosaic.Lib.ValueIdx

noncomputable section

namespace Cert.ClassStats

open Idealize.ShloMosaic Idealize.ShloMosaic.ValueIdx

/-- The shapes of the two inputs and of the per-class tables. -/
abbrev SX : Shape := ⟨2, ![2000000, 128]⟩
abbrev ST : Shape := ⟨1, ![2000000]⟩
abbrev SC : Shape := ⟨2, ![1000, 128]⟩
abbrev SN : Shape := ⟨1, ![1000]⟩

/-- The weight of a row whose class word is `w` for the class number `c`. -/
def hot (w : BitVec 32) (c : ℕ) : EReal := if w = BitVec.ofNat 32 c then 1 else 0

/-- The sum of `y` over the rows of class `c`, as a weighted sum over all rows. -/
def classSum (t : Fin 2000000 → BitVec 32) (y : Fin 2000000 → EReal) (c : ℕ) : EReal :=
  ∑ r : Fin 2000000, hot (t r) c * y r

/-- The number of rows of class `c`. -/
def classCount (t : Fin 2000000 → BitVec 32) (c : ℕ) : EReal :=
  ∑ r : Fin 2000000, hot (t r) c

/-- Per class and feature, the sum of the feature over the class's rows. -/
def sumOf (x : SX.Idx → EReal) (t : ST.Idx → BitVec 32) : SC.Idx → EReal :=
  fun i => classSum (fun r => t (ix1 r)) (fun r => x (ix2 r (i 1))) (i 0).val

/-- Per class and feature, the sum of the feature's square over the class's rows. -/
def sqSumOf (x : SX.Idx → EReal) (t : ST.Idx → BitVec 32) : SC.Idx → EReal :=
  fun i => classSum (fun r => t (ix1 r)) (fun r => x (ix2 r (i 1)) * x (ix2 r (i 1))) (i 0).val

/-- Per class, the number of its rows. -/
def countOf (t : ST.Idx → BitVec 32) : SN.Idx → EReal :=
  fun i => classCount (fun r => t (ix1 r)) (i 0).val

end Cert.ClassStats

end
-- ==== Proof.BlockSums.lean ====
/-
  What one grid point adds to the two accumulators, read at an index.

  A grid point holds a block `x` of 4000 rows by 128 features and a block `t` of 4000 class words. It forms the
  one-hot matrix `onehot r c = (t r = c)` for the 1024 class numbers `c`, the augmented block `[x | x * x]` of
  4000 rows by 256 columns, and adds to the first accumulator, at `(c, f)`, the sum over the rows `r` of
  `onehot r c * aug r f` (one matrix product contracting the rows), and to the second, at `c`, the sum over the
  rows of `onehot r c` (ten partial sums over 400 rows each, added up). At the ideal values nothing rounds: the
  narrowing to sixteen bits and the widening back are the identity, so both updates are the plain sums.
-/
import proofs.«431004_j56788057588437_3_alg».proof.Proof.Gen.KernelIdeal.Skeleton
import proofs.«431004_j56788057588437_3_alg».proof.Proof.ClassStats
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockSums

open Idealize.ShloMosaic Idealize.ShloMosaic.ValueIdx Cert.KernelIdeal Cert.KernelIdeal.Gen Cert.ClassStats

/-- A one-bit comparison word widened to 32 bits and read as a signed number is one or zero. -/
theorem sitofp_eq_bit (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · rw [if_pos h]
    have hb : (a == b) = true := by simpa using h
    have e : (BitVec.setWidth 32 (BitVec.ofBool true)).toInt = 1 := by decide
    simp only [hb, e, Int.cast_one, EReal.coe_one]
  · rw [if_neg h]
    have hb : (a == b) = false := by simpa using h
    have e : (BitVec.setWidth 32 (BitVec.ofBool false)).toInt = 0 := by decide
    simp only [hb, e, Int.cast_zero, EReal.coe_zero]

/-- A column of 4000 words broadcast along 1024 columns reads, at `(r, c)`, row `r`'s word. -/
theorem col_bcast_apply (v : IVec S4000x1 32) (r : Fin 4000) (c : Fin 1024) :
    broadcastTo S4000x1024 v broadcasts_S4000x1_S4000x1024 (ix2 r c) = v (ix2 r (0 : Fin 1)) :=
  broadcastTo_apply v _ (ix2 r c) (ix2 r (0 : Fin 1)) fun a => by
    match a with
    | ⟨0, _⟩ => rfl
    | ⟨1, _⟩ => rfl

/-- The one-hot matrix at row `r` and class `c` is the weight of row `r`'s word for class `c`. -/
theorem onehot_apply (x1 : Vec Ideal S4000x1 .i32) (r : Fin 4000) (c : Fin 1024) :
    k0_pay6 (F := Ideal) x1 (ix2 r c) = hot (x1 (ix2 r (0 : Fin 1))) c.val := by
  unfold k0_pay6
  rw [truncf_apply, sitofp_apply, extui_apply]
  show FloatOps.sitofp (F := Ideal) .f32 ((IntOp.cmpi .eq _ _).setWidth 32) = _
  rw [sitofp_eq_bit, col_bcast_apply, shapeCast_self, broadcastTo_1b_ab_apply, iota_single_apply]
  rfl

/-- feature f of row r of the augmented block [x | x*x] -/
def aug (x0 : Vec Ideal S4000x128 .f32) (r : Fin 4000) (f : Fin 256) : EReal :=
  if h : f.val < 128 then x0 (ix2 r ⟨f.val, h⟩) else x0 (ix2 r ⟨f.val - 128, by omega⟩) * x0 (ix2 r ⟨f.val - 128, by omega⟩)

/-- The augmented block `[x | x * x]`, as the two pieces joined along the columns, at `(r, f)`. -/
theorem aug_apply (x0 : Vec Ideal S4000x128 .f32) (r : Fin 4000) (f : Fin 256) :
    concatenate S4000x256 1 [⟨S4000x128, (truncf .bf16 x0 bitsLt_bf16_f32 : FVec Ideal S4000x128 .bf16)⟩,
      ⟨S4000x128, (truncf .bf16 (mulf x0 x0) bitsLt_bf16_f32 : FVec Ideal S4000x128 .bf16)⟩]
      concatenates_S4000x128_S4000x128_S4000x256_d1 (ix2 r f) = aug x0 r f := by
  unfold aug
  by_cases h : f.val < 128
  · rw [dif_pos h]
    refine (concatenate_pair_apply_left (t := S4000x256) (s₁ := S4000x128) (s₂ := S4000x128) (1 : Fin 2) _ _ _
      (ix2 r f) rfl (ix2 r (⟨f.val, h⟩ : Fin 128)) fun b => ?_).trans ?_
    · match b with
      | ⟨0, _⟩ => rfl
      | ⟨1, _⟩ => rfl
    · rfl
  · rw [dif_neg h]
    refine (concatenate_pair_apply_right (t := S4000x256) (s₁ := S4000x128) (s₂ := S4000x128) (1 : Fin 2) _ _ _
      (ix2 r f) rfl rfl (ix2 r (⟨f.val - 128, by omega⟩ : Fin 128)) (fun b hb => ?_) ?_).trans ?_
    · match b with
      | ⟨0, _⟩ => rfl
      | ⟨1, _⟩ => exact absurd rfl hb
    · show f.val - 128 + 128 = f.val
      omega
    · rfl

/-! ## The matrix product: both operands contract their rows -/

/-- The left operand's index at result index `i` and contraction index `q`: its row is `q`, … -/
theorem lhs_axis0 (i : S1024x256.Idx) (q : dot_S4000x1024_S4000x256_S1024x256_0_0_1_1_n_n.contr.Idx) :
    (dot_S4000x1024_S4000x256_S1024x256_0_0_1_1_n_n.lhsIdx i q 0).val = (q ⟨0, by decide⟩).val :=
  dot_S4000x1024_S4000x256_S1024x256_0_0_1_1_n_n.lhsIdx_val_of_single rfl i q

/-- … and its column is the result's row (the class). -/
theorem lhs_axis1 (i : S1024x256.Idx) (q : dot_S4000x1024_S4000x256_S1024x256_0_0_1_1_n_n.contr.Idx) :
    (dot_S4000x1024_S4000x256_S1024x256_0_0_1_1_n_n.lhsIdx i q 1).val = (i 0).val := by
  unfold DotDims.lhsIdx
  rw [dif_neg (show ¬(1 : Fin S4000x1024.rank) ∈ dot_S4000x1024_S4000x256_S1024x256_0_0_1_1_n_n.lhsBatch by decide),
    dif_pos (show (1 : Fin S4000x1024.rank) ∈ dot_S4000x1024_S4000x256_S1024x256_0_0_1_1_n_n.lhsNonContracting by decide)]
  rfl

/-- The right operand's index likewise: its row is `q`, … -/
theorem rhs_axis0 (i : S1024x256.Idx) (q : dot_S4000x1024_S4000x256_S1024x256_0_0_1_1_n_n.contr.Idx) :
    (dot_S4000x1024_S4000x256_S1024x256_0_0_1_1_n_n.rhsIdx i q 0).val = (q ⟨0, by decide⟩).val :=
  dot_S4000x1024_S4000x256_S1024x256_0_0_1_1_n_n.rhsIdx_val_of_single rfl i q

/-- … and its column is the result's column (the feature). -/
theorem rhs_axis1 (i : S1024x256.Idx) (q : dot_S4000x1024_S4000x256_S1024x256_0_0_1_1_n_n.contr.Idx) :
    (dot_S4000x1024_S4000x256_S1024x256_0_0_1_1_n_n.rhsIdx i q 1).val = (i 1).val := by
  unfold DotDims.rhsIdx
  rw [dif_neg (show ¬(1 : Fin S4000x256.rank) ∈ dot_S4000x1024_S4000x256_S1024x256_0_0_1_1_n_n.rhsBatch by decide),
    dif_pos (show (1 : Fin S4000x256.rank) ∈ dot_S4000x1024_S4000x256_S1024x256_0_0_1_1_n_n.rhsNonContracting by decide)]
  rfl

/-- The product into a zero accumulator at `(c, f)`: the sum over the 4000 rows of left `(r, c)` times right `(r, f)`. -/
theorem rows_product_apply (lhs : FVec Ideal S4000x1024 .bf16) (rhs : FVec Ideal S4000x256 .bf16) (c : Fin 1024) (f : Fin 256) :
    matmul dot_S4000x1024_S4000x256_S1024x256_0_0_1_1_n_n none lhs rhs (constant (F := Ideal) S1024x256 .f32 0x00000000#32) (ix2 c f)
      = ∑ r : Fin 4000, lhs (ix2 r c) * rhs (ix2 r f) := by
  simp only [matmul]
  rw [Ideal.matmul_constant_zero_apply, ← Equiv.sum_comp (contrEquiv1 dot_S4000x1024_S4000x256_S1024x256_0_0_1_1_n_n 4000 rfl rfl).symm]
  refine Finset.sum_congr rfl fun k _ => ?_
  have hk := contrEquiv1_symm_val dot_S4000x1024_S4000x256_S1024x256_0_0_1_1_n_n 4000 rfl rfl k
  have el : dot_S4000x1024_S4000x256_S1024x256_0_0_1_1_n_n.lhsIdx (ix2 c f) ((contrEquiv1 dot_S4000x1024_S4000x256_S1024x256_0_0_1_1_n_n 4000 rfl rfl).symm k) = ix2 k c :=
    funext fun a => Fin.ext (by
      match a with
      | ⟨0, _⟩ => exact (lhs_axis0 _ _).trans hk
      | ⟨1, _⟩ => exact lhs_axis1 _ _)
  have er : dot_S4000x1024_S4000x256_S1024x256_0_0_1_1_n_n.rhsIdx (ix2 c f) ((contrEquiv1 dot_S4000x1024_S4000x256_S1024x256_0_0_1_1_n_n 4000 rfl rfl).symm k) = ix2 k f :=
    funext fun a => Fin.ext (by
      match a with
      | ⟨0, _⟩ => exact (rhs_axis0 _ _).trans hk
      | ⟨1, _⟩ => exact rhs_axis1 _ _)
  rw [el, er]

/-- What a grid point leaves in the first accumulator at `(c, f)`: what was there plus, over the block's rows, the weight
    of the row for class `c` times feature `f` of the augmented row. -/
theorem acc_update_apply (x0 : Vec Ideal S4000x128 .f32) (x1 : Vec Ideal S4000x1 .i32) (acc : Vec Ideal S1024x256 .f32) (c : Fin 1024) (f : Fin 256) :
    k0_pay7 (F := Ideal) x0 x1 acc (ix2 c f) = acc (ix2 c f) + ∑ r : Fin 4000, hot (x1 (ix2 r (0 : Fin 1))) c.val * aug x0 r f := by
  unfold k0_pay7
  rw [shapeCast_self, addf_apply, rows_product_apply]
  refine congrArg (acc (ix2 c f) + ·) (Finset.sum_congr rfl fun r _ => ?_)
  rw [onehot_apply, aug_apply]

/-! ## The counts: ten partial sums over 400 rows each -/

/-- The weight of row number `r` for class `c`, over all natural numbers (zero from 4000 on). -/
def rowWeight (x1 : Vec Ideal S4000x1 .i32) (c : ℕ) (r : ℕ) : EReal :=
  if h : r < 4000 then hot (x1 (ix2 (⟨r, h⟩ : Fin 4000) (0 : Fin 1))) c else 0

/-- A sum of a 400 by 1024 block over its rows, cast to one row, at class `c`: the sum of column `c`. -/
theorem colsum_apply (src : FVec Ideal S400x1024 .f32) (u : Fin 1) (c : Fin 1024) :
    shapeCast S1x1024 (multiReduction (F := Ideal) .add [0] S1024 src 0x00000000#32 reduces_S400x1024_S1024 (.inl rfl) rfl)
      shapeCasts_S1024_S1x1024 (ix2 u c) = ∑ q : Fin 400, src (ix2 q c) := by
  rw [shapeCast_a_1a_apply]
  refine (Ideal.multiReduction_add_single src 0x00000000#32 reduces_S400x1024_S1024 (.inl rfl) rfl (ix1 c)).trans ?_
  refine Finset.sum_congr rfl fun q _ => congrArg src (funext fun a => Fin.ext ?_)
  match a with
  | ⟨0, _⟩ => rfl
  | ⟨1, _⟩ => rfl

/-- The rows `o .. o + 400` of the one-hot matrix, widened, at `(q, c)`: the weight of row `o + q`. -/
theorem chunk_apply (x1 : Vec Ideal S4000x1 .i32) (o : ℕ) (h : S4000x1024.Slices ![o, 0] S400x1024) (ho : o + 400 ≤ 4000)
    (q : Fin 400) (c : Fin 1024) :
    (extf .f32 (extractStridedSlice S400x1024 ![o, 0] (k0_pay6 (F := Ideal) x1) h) bitsLt_bf16_f32 : FVec Ideal S400x1024 .f32) (ix2 q c)
      = rowWeight x1 c.val (o + q.val) := by
  have hr : o + q.val < 4000 := by have := q.isLt; omega
  rw [extf_apply, slice2_axis0_apply o _ h q c (⟨o + q.val, hr⟩ : Fin 4000) rfl, onehot_apply]
  unfold rowWeight
  rw [dif_pos hr]

/-- Ten consecutive runs of 400 terms, added up from zero, are the first 4000 terms. -/
theorem sum_ten_runs {M : Type*} [AddCommMonoid M] (g : ℕ → M) :
    ((((((((((0 + ∑ q ∈ Finset.range 400, g (0 + q)) + ∑ q ∈ Finset.range 400, g (400 + q)) + ∑ q ∈ Finset.range 400, g (800 + q)) + ∑ q ∈ Finset.range 400, g (1200 + q)) + ∑ q ∈ Finset.range 400, g (1600 + q)) + ∑ q ∈ Finset.range 400, g (2000 + q)) + ∑ q ∈ Finset.range 400, g (2400 + q)) + ∑ q ∈ Finset.range 400, g (2800 + q)) + ∑ q ∈ Finset.range 400, g (3200 + q)) + ∑ q ∈ Finset.range 400, g (3600 + q))
      = ∑ r ∈ Finset.range 4000, g r := by
  have h400 : ∑ r ∈ Finset.range 800, g r = ∑ r ∈ Finset.range 400, g r + ∑ q ∈ Finset.range 400, g (400 + q) :=
    Finset.sum_range_add g 400 400
  have h800 : ∑ r ∈ Finset.range 1200, g r = ∑ r ∈ Finset.range 800, g r + ∑ q ∈ Finset.range 400, g (800 + q) :=
    Finset.sum_range_add g 800 400
  have h1200 : ∑ r ∈ Finset.range 1600, g r = ∑ r ∈ Finset.range 1200, g r + ∑ q ∈ Finset.range 400, g (1200 + q) :=
    Finset.sum_range_add g 1200 400
  have h1600 : ∑ r ∈ Finset.range 2000, g r = ∑ r ∈ Finset.range 1600, g r + ∑ q ∈ Finset.range 400, g (1600 + q) :=
    Finset.sum_range_add g 1600 400
  have h2000 : ∑ r ∈ Finset.range 2400, g r = ∑ r ∈ Finset.range 2000, g r + ∑ q ∈ Finset.range 400, g (2000 + q) :=
    Finset.sum_range_add g 2000 400
  have h2400 : ∑ r ∈ Finset.range 2800, g r = ∑ r ∈ Finset.range 2400, g r + ∑ q ∈ Finset.range 400, g (2400 + q) :=
    Finset.sum_range_add g 2400 400
  have h2800 : ∑ r ∈ Finset.range 3200, g r = ∑ r ∈ Finset.range 2800, g r + ∑ q ∈ Finset.range 400, g (2800 + q) :=
    Finset.sum_range_add g 2800 400
  have h3200 : ∑ r ∈ Finset.range 3600, g r = ∑ r ∈ Finset.range 3200, g r + ∑ q ∈ Finset.range 400, g (3200 + q) :=
    Finset.sum_range_add g 3200 400
  have h3600 : ∑ r ∈ Finset.range 4000, g r = ∑ r ∈ Finset.range 3600, g r + ∑ q ∈ Finset.range 400, g (3600 + q) :=
    Finset.sum_range_add g 3600 400
  have h0 : ∑ q ∈ Finset.range 400, g (0 + q) = ∑ r ∈ Finset.range 400, g r :=
    Finset.sum_congr rfl fun q _ => by rw [Nat.zero_add]
  rw [h3600, h3200, h2800, h2400, h2000, h1600, h1200, h800, h400, h0, zero_add]

/-- One run of 400 rows of the one-hot matrix, summed over its rows and cast to one row, at class `c`. -/
theorem run_apply (x1 : Vec Ideal S4000x1 .i32) (o : ℕ) (h : S4000x1024.Slices ![o, 0] S400x1024) (ho : o + 400 ≤ 4000)
    (u : Fin 1) (c : Fin 1024) :
    shapeCast S1x1024 (multiReduction (F := Ideal) .add [0] S1024
        (extf .f32 (extractStridedSlice S400x1024 ![o, 0] (k0_pay6 (F := Ideal) x1) h) bitsLt_bf16_f32) 0x00000000#32
        reduces_S400x1024_S1024 (.inl rfl) rfl) shapeCasts_S1024_S1x1024 (ix2 u c)
      = ∑ q ∈ Finset.range 400, rowWeight x1 c.val (o + q) := by
  rw [colsum_apply, ← Fin.sum_univ_eq_sum_range (fun q => rowWeight x1 c.val (o + q)) 400]
  exact Finset.sum_congr rfl fun q _ => chunk_apply x1 o h ho q c

/-- What a grid point leaves in the second accumulator at class `c`: what was there plus the number of the block's rows
    whose word is the word of `c`. -/
theorem count_update_apply (x1 : Vec Ideal S4000x1 .i32) (cnt : Vec Ideal S1x1024 .f32) (c : Fin 1024) :
    k0_pay1 (F := Ideal) (k0_pay6 x1) (k0_pay8 x1) (k0_pay9 x1) cnt (ix2 (0 : Fin 1) c) = cnt (ix2 (0 : Fin 1) c) + ∑ r : Fin 4000, hot (x1 (ix2 r (0 : Fin 1))) c.val := by
  have htot : ∑ r : Fin 4000, hot (x1 (ix2 r (0 : Fin 1))) c.val = ∑ r ∈ Finset.range 4000, rowWeight x1 c.val r := by
    rw [← Fin.sum_univ_eq_sum_range (fun r => rowWeight x1 c.val r) 4000]
    refine Finset.sum_congr rfl fun r _ => ?_
    unfold rowWeight
    rw [dif_pos r.isLt]
  rw [htot, ← sum_ten_runs]
  unfold k0_pay1 k0_pay8 k0_pay9
  rw [shapeCast_self]
  simp only [addf_apply, broadcast_apply]
  rw [run_apply x1 0 _ (by decide),
    run_apply x1 400 _ (by decide),
    run_apply x1 800 _ (by decide),
    run_apply x1 1200 _ (by decide),
    run_apply x1 1600 _ (by decide),
    run_apply x1 2000 _ (by decide),
    run_apply x1 2400 _ (by decide),
    run_apply x1 2800 _ (by decide),
    run_apply x1 3200 _ (by decide),
    run_apply x1 3600 _ (by decide)]
  show cnt (ix2 (0 : Fin 1) c) + (Ideal.ofBits .f32 0x00000000#32 + _ + _ + _ + _ + _ + _ + _ + _ + _ + _) = _
  rw [Ideal.ofBits_zero_f32]

end Cert.KernelIdeal.BlockSums

end
-- ==== Proof.LibKeepdims.lean ====
/-
  Two layout reads for reductions that keep their axis: a vector cast to a one-column matrix, and the index a
  reduction over the columns of a matrix inserts.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing an `[a, b]` matrix over its columns: the index inserted at row `i` and column `k` is `(i, k)`. -/
theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

/-- The f32 pattern of minus infinity is the bottom of the extended reals. -/
theorem ofBits_neg_inf_f32 : Ideal.ofBits .f32 0xFF800000#32 = ⊥ := by simp [Ideal.ofBits, Ideal.ieee]

end Idealize.ShloMosaic.ValueIdx
-- ==== Proof.Blocks.lean ====
/-
  The two input blocks of a grid point, read where they lie in the argument arrays.

  Grid point `t` (of 500, walked in order) is given rows `4000 t .. 4000 t + 3999` of `x` and of the class words:
  the index maps send point `(p, b)` to block `250 p + b`, which is `t` itself. The class words reach the region as
  a one-column matrix, the argument vector re-laid by the one host line before the region; entry `(r, 0)` of that
  matrix is entry `r` of the vector.
-/
import proofs.«431004_j56788057588437_3_alg».proof.Proof.Gen.KernelIdeal.Frame
import proofs.«431004_j56788057588437_3_alg».proof.Proof.LibKeepdims
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Both input windows are at block `t` (rows) and block 0 (columns) at point `t`. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Row `r` of the block of point `t`, as a row of the whole arrays. -/
def rowOf (t : Fin cfg0.N) (r : Fin 4000) : Fin 2000000 :=
  ⟨4000 * t.val + r.val, by
    have h : t.val < 500 := lt_of_lt_of_eq t.isLt (show cfg0.N = 500 from N_0)
    have := r.isLt
    omega⟩

theorem rowOf_val (t : Fin cfg0.N) (r : Fin 4000) : (rowOf t r).val = 4000 * t.val + r.val := rfl

/-- The feature block of point `t` at `(r, f)` is `x` at `(4000 t + r, f)`. -/
theorem xblk_apply (c : Dev nD) (t : Fin cfg0.N) (r : Fin 4000) (f : Fin 128) :
    (iblk m c 0 t : Vec F S4000x128 .f32) (ix2 r f) = m ((c : Thread nD τ).loc main_arg0) (ix2 (rowOf t r) f) := by
  unfold iblk
  rw [View.read_apply]
  show V m c main_arg0 _ = _
  rw [V_main_arg0]
  congr 1
  funext a
  apply Fin.ext
  match a with
  | ⟨0, _⟩ => show win0_0.index t 0 * 4000 + 1 * r.val = 4000 * t.val + r.val; rw [(index0 t).1]; omega
  | ⟨1, _⟩ => show win0_0.index t 1 * 128 + 1 * f.val = f.val; rw [(index0 t).2]; omega

/-- The one host line before the region re-lays the class words as a one-column matrix. -/
theorem V_main_v0 (c : Dev nD) :
    (V m c main_v0 : S2000000x1.Idx → BitVec 32)
      = shapeCast S2000000x1 (m ((c : Thread nD τ).loc main_arg1)) shapeCasts_S2000000_S2000000x1 := by
  show StableHlo.after hostOps0 (fun b => m (c, b)) (Proc.devRef .tc main_v0) = _
  after_results
  rfl

/-- The class-word block of point `t` at `(r, 0)` is the class word of row `4000 t + r`. -/
theorem tblk_apply (c : Dev nD) (t : Fin cfg0.N) (r : Fin 4000) (u : Fin 1) :
    (iblk m c 1 t : Vec F S4000x1 .i32) (ix2 r u) = m ((c : Thread nD τ).loc main_arg1) (ix1 (rowOf t r)) := by
  unfold iblk
  rw [View.read_apply]
  show V m c main_v0 _ = _
  rw [V_main_v0]
  refine Eq.trans ?_ (shapeCast_a_a1_apply (m ((c : Thread nD τ).loc main_arg1)) shapeCasts_S2000000_S2000000x1 (rowOf t r) u)
  congr 1
  funext a
  apply Fin.ext
  match a with
  | ⟨0, _⟩ => show win0_1.index t 0 * 4000 + 1 * r.val = 4000 * t.val + r.val; rw [(index1 t).1]; omega
  | ⟨1, _⟩ => show win0_1.index t 1 * 1 + 1 * u.val = u.val; rw [(index1 t).2]; omega

end Cert.KernelIdeal.Blocks

end
-- ==== Proof.RunningSums.lean ====
/-
  The arithmetic of the running sums, free of any program.

  A function `g` of the row number is summed in blocks of 4000 rows, block `n` holding rows `4000 n .. 4000 n + 3999`;
  the blocks are walked in order, and the sum starts afresh at every block whose number is a multiple of 250. After
  block `n` the running sum is therefore the sum of `g` over the rows from the start of the half block `n` lies in
  (row `1000000 (n / 250)`) up to the end of block `n`. After the last block of a half it is the sum over the
  half, and the two halves together are the sum over all 2,000,000 rows. Sums of extended reals may be regrouped
  and reordered freely: addition there is associative and commutative.
-/
import Mathlib.Algebra.BigOperators.Intervals
import Mathlib.Algebra.BigOperators.Fin
import Mathlib.Data.EReal.Basic

namespace Cert.ClassStats

open Finset

variable {M : Type*} [AddCommMonoid M]

/-- The sum over block `n`, as a sum over its 4000 positions. -/
theorem sum_block (g : ℕ → M) (n : ℕ) :
    ∑ r : Fin 4000, g (4000 * n + r.val) = ∑ i ∈ Ico (4000 * n) (4000 * (n + 1)), g i := by
  rw [sum_Ico_eq_sum_range, show 4000 * (n + 1) - 4000 * n = 4000 by omega]
  exact Fin.sum_univ_eq_sum_range (fun r => g (4000 * n + r)) 4000

/-- The running sum after block `n`. -/
def runSum (g : ℕ → M) (n : ℕ) : M := ∑ i ∈ Ico (1000000 * (n / 250)) (4000 * (n + 1)), g i

/-- At the first block of a half the running sum is that block's sum. -/
theorem runSum_first (g : ℕ → M) (n : ℕ) (h : n % 250 = 0) :
    runSum g n = ∑ r : Fin 4000, g (4000 * n + r.val) := by
  rw [sum_block]
  unfold runSum
  rw [show 1000000 * (n / 250) = 4000 * n by omega]

/-- At any other block it is the running sum before, plus that block's sum. -/
theorem runSum_next (g : ℕ → M) (n : ℕ) (h : ¬(n + 1) % 250 = 0) :
    runSum g (n + 1) = runSum g n + ∑ r : Fin 4000, g (4000 * (n + 1) + r.val) := by
  rw [sum_block]
  unfold runSum
  rw [show (n + 1) / 250 = n / 250 by omega]
  exact (sum_Ico_consecutive g (by omega) (by omega)).symm

/-- After the last block of half `p` it is the sum over the half. -/
theorem runSum_last (g : ℕ → M) (p : ℕ) :
    runSum g (250 * p + 249) = ∑ i ∈ Ico (1000000 * p) (1000000 * (p + 1)), g i := by
  unfold runSum
  rw [show (250 * p + 249) / 250 = p by omega, show 4000 * (250 * p + 249 + 1) = 1000000 * (p + 1) by omega]

/-- The two halves together are the sum over all rows. -/
theorem runSum_halves (g : ℕ → M) :
    runSum g (250 * 0 + 249) + runSum g (250 * 1 + 249) = ∑ r : Fin 2000000, g r.val := by
  rw [runSum_last, runSum_last, Fin.sum_univ_eq_sum_range g 2000000, range_eq_Ico]
  exact sum_Ico_consecutive g (by omega) (by omega)

end Cert.ClassStats
-- ==== Proof.Accum.lean ====
/-
  What the two accumulators hold after every grid point, by induction on the point.

  Write `w i c` for the weight of row `i` for class `c` and `a i f` for feature `f` of the augmented row `[x | x*x]`.
  One point adds, to entry `(c, f)` of the table, the sum of `w i c * a i f` over its 4000 rows, and to entry `c`
  of the counts the sum of `w i c` over them; the first point of a half starts from zero. So after point `n` entry
  `(c, f)` of the table is the running sum of `i ↦ w i c * a i f` and entry `c` of the counts the running sum of
  `i ↦ w i c`, in the sense of the running-sum arithmetic: the sum over the rows from the start of the half to the
  end of block `n`.
-/
import proofs.«431004_j56788057588437_3_alg».proof.Proof.Pieces
import proofs.«431004_j56788057588437_3_alg».proof.Proof.BlockSums
import proofs.«431004_j56788057588437_3_alg».proof.Proof.Blocks
import proofs.«431004_j56788057588437_3_alg».proof.Proof.RunningSums
import proofs.«431004_j56788057588437_3_alg».proof.Proof.ClassStats
import Idealize.ShloMosaic.Lib.Pipeline.Value
import Idealize.ShloMosaic.Lib.ValueIdx
import Idealize.ShloMosaic.PureOps.Ideal.Laws

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Pieces Cert.KernelIdeal.Blocks Cert.KernelIdeal.BlockSums Cert.ClassStats

variable (m : (ℓ : Loc nD τ sig) → Buf (Elt Ideal) ℓ)

/-- The two argument arrays on core `c`. -/
abbrev X (c : Dev nD) : S2000000x128.Idx → EReal := m ((c : Thread nD τ).loc main_arg0)
abbrev Tw (c : Dev nD) : S2000000.Idx → BitVec 32 := m ((c : Thread nD τ).loc main_arg1)

/-- Feature `f` of the augmented row `[x | x*x]` of a row of the whole array. -/
def augRow (c : Dev nD) (row : Fin 2000000) (f : Fin 256) : EReal :=
  if h : f.val < 128 then X m c (ix2 row ⟨f.val, h⟩)
  else X m c (ix2 row ⟨f.val - 128, by omega⟩) * X m c (ix2 row ⟨f.val - 128, by omega⟩)

/-- What row number `i` adds to entry `(cc, f)` of the table (nothing beyond the last row). -/
def gAcc (c : Dev nD) (cc : Fin 1024) (f : Fin 256) (i : ℕ) : EReal :=
  if h : i < 2000000 then hot (Tw m c (ix1 ⟨i, h⟩)) cc.val * augRow m c ⟨i, h⟩ f else 0

/-- What row number `i` adds to entry `cc` of the counts. -/
def gCnt (c : Dev nD) (cc : Fin 1024) (i : ℕ) : EReal :=
  if h : i < 2000000 then hot (Tw m c (ix1 ⟨i, h⟩)) cc.val else 0

/-- The block of point `t` contributes its rows' summands to the table, -/
theorem block_acc (c : Dev nD) (t : Fin cfg0.N) (cc : Fin 1024) (f : Fin 256) :
    ∑ r : Fin 4000, hot ((iblk m c 1 t : Vec Ideal S4000x1 .i32) (ix2 r (0 : Fin 1))) cc.val * aug (iblk m c 0 t : Vec Ideal S4000x128 .f32) r f
      = ∑ r : Fin 4000, gAcc m c cc f (4000 * t.val + r.val) := by
  refine Finset.sum_congr rfl fun r _ => ?_
  rw [tblk_apply]
  unfold gAcc
  rw [dif_pos (show 4000 * t.val + r.val < 2000000 from (rowOf t r).isLt)]
  unfold aug augRow
  by_cases hf : f.val < 128
  · rw [dif_pos hf, dif_pos hf, xblk_apply]; rfl
  · rw [dif_neg hf, dif_neg hf, xblk_apply]; rfl

/-- and to the counts. -/
theorem block_cnt (c : Dev nD) (t : Fin cfg0.N) (cc : Fin 1024) :
    ∑ r : Fin 4000, hot ((iblk m c 1 t : Vec Ideal S4000x1 .i32) (ix2 r (0 : Fin 1))) cc.val
      = ∑ r : Fin 4000, gCnt m c cc (4000 * t.val + r.val) := by
  refine Finset.sum_congr rfl fun r _ => ?_
  rw [tblk_apply]
  unfold gCnt
  rw [dif_pos (show 4000 * t.val + r.val < 2000000 from (rowOf t r).isLt)]
  rfl

/-- The zero table and the zero row the first point of a half stores. -/
theorem zero_table (cc : Fin 1024) (f : Fin 256) : k0_pay4 (F := Ideal) (ix2 cc f) = 0 := by
  unfold k0_pay4
  rw [shapeCast_self]
  exact Ideal.ofBits_zero_f32
theorem zero_row (cc : Fin 1024) : k0_pay5 (F := Ideal) (ix2 (0 : Fin 1) cc) = 0 := by
  unfold k0_pay5
  rw [shapeCast_self]
  exact Ideal.ofBits_zero_f32

/-- At the first point of a half the table holds the block's contribution. -/
theorem acc_first (c : Dev nD) (t : Fin cfg0.N) (h0 : t.val % 250 = 0) (h1 : ¬t.val % 250 = 249) (cc : Fin 1024) (f : Fin 256) :
    (outsAt0 (F := Ideal) m c t.val t.isLt).2.2.1 (ix2 cc f) = ∑ r : Fin 4000, gAcc m c cc f (4000 * t.val + r.val) := by
  rw [outsAt0_A m c t h0 h1]
  dsimp only
  refine (congrFun (acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix2 cc f)).trans ?_
  refine (acc_update_apply (iblk m c 0 t) (iblk m c 1 t) (k0_pay4 (F := Ideal)) cc f).trans ?_
  rw [zero_table, zero_add]
  exact block_acc m c t cc f

/-- At any other point it holds what the point before left, plus the block's contribution. -/
theorem acc_later (c : Dev nD) (t : Fin cfg0.N) (h0 : ¬t.val % 250 = 0) (cc : Fin 1024) (f : Fin 256) :
    (outsAt0 (F := Ideal) m c t.val t.isLt).2.2.1 (ix2 cc f)
      = (outsAt0 (F := Ideal) m c (t.val - 1) (Nat.lt_of_le_of_lt (Nat.sub_le _ _) t.isLt)).2.2.1 (ix2 cc f)
        + ∑ r : Fin 4000, gAcc m c cc f (4000 * t.val + r.val) := by
  by_cases h1 : t.val % 250 = 249
  · rw [outsAt0_C m c t h0 h1]
    dsimp only
    refine (congrFun (acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc f)).trans ?_
    refine (acc_update_apply (iblk m c 0 t) (iblk m c 1 t) _ cc f).trans ?_
    rw [block_acc m c t cc f]
  · rw [outsAt0_B m c t h0 h1]
    dsimp only
    refine (congrFun (acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc f)).trans ?_
    refine (acc_update_apply (iblk m c 0 t) (iblk m c 1 t) _ cc f).trans ?_
    rw [block_acc m c t cc f]

/-- After point `n` entry `(cc, f)` of the table is the running sum of its summands. -/
theorem acc_at (c : Dev nD) : ∀ (n : ℕ) (h : n < cfg0.N) (cc : Fin 1024) (f : Fin 256),
    (outsAt0 (F := Ideal) m c n h).2.2.1 (ix2 cc f) = runSum (gAcc m c cc f) n
  | 0, h, cc, f => by
    rw [runSum_first _ 0 rfl]
    exact acc_first m c ⟨0, h⟩ rfl (by show ¬0 % 250 = 249; decide) cc f
  | n + 1, h, cc, f => by
    by_cases h0 : (n + 1) % 250 = 0
    · rw [runSum_first _ _ h0]
      exact acc_first m c ⟨n + 1, h⟩ h0 (by show ¬(n + 1) % 250 = 249; omega) cc f
    · rw [runSum_next _ _ h0, ← acc_at c n (Nat.lt_of_succ_lt h) cc f]
      exact acc_later m c ⟨n + 1, h⟩ h0 cc f

/-- The same three steps for the counts. -/
theorem cnt_first (c : Dev nD) (t : Fin cfg0.N) (h0 : t.val % 250 = 0) (h1 : ¬t.val % 250 = 249) (cc : Fin 1024) :
    (outsAt0 (F := Ideal) m c t.val t.isLt).2.2.2 (ix2 (0 : Fin 1) cc) = ∑ r : Fin 4000, gCnt m c cc (4000 * t.val + r.val) := by
  rw [outsAt0_A m c t h0 h1]
  dsimp only
  refine (congrFun (cnt_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) (ix2 (0 : Fin 1) cc)).trans ?_
  refine (count_update_apply (iblk m c 1 t) (k0_pay5 (F := Ideal)) cc).trans ?_
  rw [zero_row, zero_add]
  exact block_cnt m c t cc

theorem cnt_later (c : Dev nD) (t : Fin cfg0.N) (h0 : ¬t.val % 250 = 0) (cc : Fin 1024) :
    (outsAt0 (F := Ideal) m c t.val t.isLt).2.2.2 (ix2 (0 : Fin 1) cc)
      = (outsAt0 (F := Ideal) m c (t.val - 1) (Nat.lt_of_le_of_lt (Nat.sub_le _ _) t.isLt)).2.2.2 (ix2 (0 : Fin 1) cc)
        + ∑ r : Fin 4000, gCnt m c cc (4000 * t.val + r.val) := by
  by_cases h1 : t.val % 250 = 249
  · rw [outsAt0_C m c t h0 h1]
    dsimp only
    refine (congrFun (cnt_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) cc)).trans ?_
    refine (count_update_apply (iblk m c 1 t) _ cc).trans ?_
    rw [block_cnt m c t cc]
  · rw [outsAt0_B m c t h0 h1]
    dsimp only
    refine (congrFun (cnt_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 (0 : Fin 1) cc)).trans ?_
    refine (count_update_apply (iblk m c 1 t) _ cc).trans ?_
    rw [block_cnt m c t cc]

/-- After point `n` entry `cc` of the counts is the running sum of its summands. -/
theorem cnt_at (c : Dev nD) : ∀ (n : ℕ) (h : n < cfg0.N) (cc : Fin 1024),
    (outsAt0 (F := Ideal) m c n h).2.2.2 (ix2 (0 : Fin 1) cc) = runSum (gCnt m c cc) n
  | 0, h, cc => by
    rw [runSum_first _ 0 rfl]
    exact cnt_first m c ⟨0, h⟩ rfl (by show ¬0 % 250 = 249; decide) cc
  | n + 1, h, cc => by
    by_cases h0 : (n + 1) % 250 = 0
    · rw [runSum_first _ _ h0]
      exact cnt_first m c ⟨n + 1, h⟩ h0 (by show ¬(n + 1) % 250 = 249; omega) cc
    · rw [runSum_next _ _ h0, ← cnt_at c n (Nat.lt_of_succ_lt h) cc]
      exact cnt_later m c ⟨n + 1, h⟩ h0 cc

end Cert.KernelIdeal.Accum

end
-- ==== Proof.After.lean ====
/-
  The kernel program after its one region, as definitions.

  The region's grid is 2 x 250 points, walked in order; point `250 p + b` handles rows
  `4000 (250 p + b) .. + 4000`. Its two result arrays, of shapes [2, 1024, 256] and [2, 1, 1024], are written
  only at the last point of each half (`b = 249`): block `p` is what that point leaves in the result's buffer.
  `out2` and `out3` name exactly that. The host lines after the region add the two halves, cut the class rows
  0..999 and the feature columns 0..127 / 128..255 out (`statS`, `statSS`, `statN`), and finish with the
  variance formula, its absolute value summed over features and classes and divided by 1000 (`tail`).
-/
import proofs.«431004_j56788057588437_3_alg».proof.Proof.Gen.KernelIdeal.Frame
import proofs.«431004_j56788057588437_3_alg».proof.Proof.ClassStats
import Idealize.ShloMosaic.Lib.ValueIdx

noncomputable section

namespace Cert.KernelIdeal.After

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The last point of half `p` of the grid. -/
def lastOf (p : Fin 2) : Fin cfg0.N :=
  ⟨250 * p.val + 249, by have := p.isLt; rw [show cfg0.N = 500 from N_0]; omega⟩

/-- The first result array of the region: block `p` is what the last point of half `p` leaves in its buffer. -/
def out2 (c : Dev nD) : Vec Ideal S2x1024x256 .f32 :=
  fun j => (outsAt0 (F := Ideal) m c (lastOf (j 0)).val (lastOf (j 0)).isLt).1 (ix3 (0 : Fin 1) (j 1 : Fin 1024) (j 2 : Fin 256))

/-- The second result array of the region, likewise. -/
def out3 (c : Dev nD) : Vec Ideal S2x1x1024 .f32 :=
  fun j => (outsAt0 (F := Ideal) m c (lastOf (j 0)).val (lastOf (j 0)).isLt).2.1 (ix3 (0 : Fin 1) (j 1 : Fin 1) (j 2 : Fin 1024))

/-- The two halves added, rows 0..999 and columns 0..127 cut out: the per-class sums. -/
def statS (o2 : Vec Ideal S2x1024x256 .f32) : FVec Ideal S1000x128 .f32 :=
  extractStridedSlice S1000x128 ![0, 0]
    (Host.reduceAdd (F := Ideal) o2 (constant (F := Ideal) S_ .f32 0x00000000#32) reducesTo_S2x1024x256_S1024x256_d0 h_S_)
    slices_S1024x256_S1000x128_0_0

/-- The same with columns 128..255: the per-class sums of squares. -/
def statSS (o2 : Vec Ideal S2x1024x256 .f32) : FVec Ideal S1000x128 .f32 :=
  extractStridedSlice S1000x128 ![0, 128]
    (Host.reduceAdd (F := Ideal) o2 (constant (F := Ideal) S_ .f32 0x00000000#32) reducesTo_S2x1024x256_S1024x256_d0 h_S_)
    slices_S1024x256_S1000x128_0_128

/-- The two halves of the counts added, re-laid as a vector, entries 0..999 cut out: the per-class counts. -/
def statN (o3 : Vec Ideal S2x1x1024 .f32) : FVec Ideal S1000 .f32 :=
  extractStridedSlice S1000 ![0]
    (shapeCast S1024
      (Host.reduceAdd (F := Ideal) o3 (constant (F := Ideal) S_ .f32 0x00000000#32) reducesTo_S2x1x1024_S1x1024_d0 h_S_)
      shapeCasts_S1x1024_S1024)
    slices_S1024_S1000_0

/-- From the three statistics to the result: `|(ss - s*s/n) / (n - 1)|` summed over features, then classes, over 1000. -/
def tail (s ss : FVec Ideal S1000x128 .f32) (n : FVec Ideal S1000 .f32) : FVec Ideal S1 .f32 :=
  let n1 : FVec Ideal S1000x1 .f32 := broadcastInDim S1000x1 ![0] bcast_S1000_S1000x1_0 n
  let q : FVec Ideal S1000x128 .f32 :=
    Host.divf (mulf s s) (broadcastInDim S1000x128 ![0, 1] bcast_S1000x1_S1000x128_0_1 n1)
  let one : FVec Ideal S1000x1 .f32 := broadcastInDim S1000x1 ![] bcast_S_S1000x1 (constant (F := Ideal) S_ .f32 0x3F800000#32)
  let v : FVec Ideal S1000x128 .f32 :=
    Host.divf (subf ss q) (broadcastInDim S1000x128 ![0, 1] bcast_S1000x1_S1000x128_0_1 (subf n1 one))
  let r1 : FVec Ideal S1000 .f32 :=
    Host.reduceAdd (F := Ideal) (Host.absf v) (constant (F := Ideal) S_ .f32 0x00000000#32) reducesTo_S1000x128_S1000_d1 h_S_
  let r0 : FVec Ideal S_ .f32 :=
    Host.reduceAdd (F := Ideal) r1 (constant (F := Ideal) S_ .f32 0x00000000#32) reducesTo_S1000_S_d0 h_S_
  shapeCast S1 (Host.divf r0 (constant (F := Ideal) S_ .f32 0x447A0000#32)) shapeCasts_S_S1

end Cert.KernelIdeal.After

end
-- ==== Proof.Stats.lean ====
/-
  The three statistics the kernel program hands to its tail are the per-class statistics of the specification.

  The last point of half `p` copies the table and the counts into block `p` of the two result arrays, so entry
  `(p, c, f)` of the first is the running sum of the table's summands over half `p` and entry `(p, 0, c)` of the
  second that of the counts' summands. The host adds the two halves: the sum over all rows. Cutting out classes
  below 1000 and feature columns `f` or `128 + f` leaves the weighted sums of `x`, of `x * x`, and the counts.
-/
import proofs.«431004_j56788057588437_3_alg».proof.Proof.Accum
import proofs.«431004_j56788057588437_3_alg».proof.Proof.After
import Idealize.ShloMosaic.Lib.Pipeline.Value
import Idealize.ShloMosaic.Lib.ValueIdx
import Idealize.ShloMosaic.PureOps.Ideal.Laws

noncomputable section

namespace Cert.KernelIdeal.Stats

open Idealize.ShloMosaic Idealize.ShloMosaic.TcCoe Idealize.SL.Sem Idealize.ShloMosaic.ValueIdx
open Cert.KernelIdeal Cert.KernelIdeal.Gen Cert.KernelIdeal.Pieces Cert.KernelIdeal.After Cert.KernelIdeal.Accum Cert.ClassStats

variable (m : (ℓ : Loc nD τ sig) → Buf (Elt Ideal) ℓ)

/-- The last point of a half is not its first. -/
theorem last_mod (p : Fin 2) : ¬(lastOf p).val % 250 = 0 ∧ (lastOf p).val % 250 = 249 := by
  have := p.isLt
  show ¬(250 * p.val + 249) % 250 = 0 ∧ (250 * p.val + 249) % 250 = 249
  omega

/-- Entry `(p, cc, f)` of the first result array: the table's running sum over half `p`. -/
theorem out2_apply (c : Dev nD) (p : Fin 2) (cc : Fin 1024) (f : Fin 256) :
    out2 m c (ix3 p cc f) = runSum (gAcc m c cc f) (250 * p.val + 249) := by
  rw [← acc_at m c (250 * p.val + 249) (lastOf p).isLt cc f]
  show (outsAt0 (F := Ideal) m c (lastOf p).val (lastOf p).isLt).1 (ix3 (0 : Fin 1) cc f)
    = (outsAt0 (F := Ideal) m c (lastOf p).val (lastOf p).isLt).2.2.1 (ix2 cc f)
  rw [outsAt0_C m c (lastOf p) (last_mod p).1 (last_mod p).2]
  dsimp only
  refine (congrFun (out_C_2 (F := Ideal) c (grid0.coords (lastOf p)) (ms0_0 (lastOf p)) (hs0_0 (lastOf p)) (ms0_1 (lastOf p)) (hs0_1 (lastOf p)) (ms0_2 (lastOf p)) (hs0_2 (lastOf p)) (ms0_3 (lastOf p)) (hs0_3 (lastOf p)) scM0_0 (Memref.isWhole_whole _) scM0_1 (Memref.isWhole_whole _) (fun h => (last_mod p).1 ((hcond0_0 (lastOf p)).mp h)) ((hcond0_1 (lastOf p)).mpr (last_mod p).2) (iblk m c 0 (lastOf p)) (iblk m c 1 (lastOf p)) (outsAt0 (F := Ideal) m c ((lastOf p).val - 1) (Nat.lt_of_le_of_lt (Nat.sub_le _ _) (lastOf p).isLt)).2.2.1 (outsAt0 (F := Ideal) m c ((lastOf p).val - 1) (Nat.lt_of_le_of_lt (Nat.sub_le _ _) (lastOf p).isLt)).2.2.2) (ix3 (0 : Fin 1) cc f)).trans ?_
  refine Eq.trans ?_ (congrFun (acc_C (F := Ideal) c (grid0.coords (lastOf p)) (ms0_0 (lastOf p)) (hs0_0 (lastOf p)) (ms0_1 (lastOf p)) (hs0_1 (lastOf p)) (ms0_2 (lastOf p)) (hs0_2 (lastOf p)) (ms0_3 (lastOf p)) (hs0_3 (lastOf p)) scM0_0 (Memref.isWhole_whole _) scM0_1 (Memref.isWhole_whole _) (fun h => (last_mod p).1 ((hcond0_0 (lastOf p)).mp h)) ((hcond0_1 (lastOf p)).mpr (last_mod p).2) (iblk m c 0 (lastOf p)) (iblk m c 1 (lastOf p)) (outsAt0 (F := Ideal) m c ((lastOf p).val - 1) (Nat.lt_of_le_of_lt (Nat.sub_le _ _) (lastOf p).isLt)).2.2.1 (outsAt0 (F := Ideal) m c ((lastOf p).val - 1) (Nat.lt_of_le_of_lt (Nat.sub_le _ _) (lastOf p).isLt)).2.2.2) (ix2 cc f)).symm
  unfold k0_pay2
  refine (shapeCast_addUnit_apply ![1024, 256] _ _ (ix3 (0 : Fin 1) cc f)).trans (congrArg _ (funext fun a => ?_))
  match a with
  | ⟨0, _⟩ => rfl
  | ⟨1, _⟩ => rfl

/-- Entry `(p, 0, cc)` of the second: the counts' running sum over half `p`. -/
theorem out3_apply (c : Dev nD) (p : Fin 2) (cc : Fin 1024) :
    out3 m c (ix3 p (0 : Fin 1) cc) = runSum (gCnt m c cc) (250 * p.val + 249) := by
  rw [← cnt_at m c (250 * p.val + 249) (lastOf p).isLt cc]
  show (outsAt0 (F := Ideal) m c (lastOf p).val (lastOf p).isLt).2.1 (ix3 (0 : Fin 1) (0 : Fin 1) cc)
    = (outsAt0 (F := Ideal) m c (lastOf p).val (lastOf p).isLt).2.2.2 (ix2 (0 : Fin 1) cc)
  rw [outsAt0_C m c (lastOf p) (last_mod p).1 (last_mod p).2]
  dsimp only
  refine (congrFun (out_C_3 (F := Ideal) c (grid0.coords (lastOf p)) (ms0_0 (lastOf p)) (hs0_0 (lastOf p)) (ms0_1 (lastOf p)) (hs0_1 (lastOf p)) (ms0_2 (lastOf p)) (hs0_2 (lastOf p)) (ms0_3 (lastOf p)) (hs0_3 (lastOf p)) scM0_0 (Memref.isWhole_whole _) scM0_1 (Memref.isWhole_whole _) (fun h => (last_mod p).1 ((hcond0_0 (lastOf p)).mp h)) ((hcond0_1 (lastOf p)).mpr (last_mod p).2) (iblk m c 0 (lastOf p)) (iblk m c 1 (lastOf p)) (outsAt0 (F := Ideal) m c ((lastOf p).val - 1) (Nat.lt_of_le_of_lt (Nat.sub_le _ _) (lastOf p).isLt)).2.2.1 (outsAt0 (F := Ideal) m c ((lastOf p).val - 1) (Nat.lt_of_le_of_lt (Nat.sub_le _ _) (lastOf p).isLt)).2.2.2) (ix3 (0 : Fin 1) (0 : Fin 1) cc)).trans ?_
  refine Eq.trans ?_ (congrFun (cnt_C (F := Ideal) c (grid0.coords (lastOf p)) (ms0_0 (lastOf p)) (hs0_0 (lastOf p)) (ms0_1 (lastOf p)) (hs0_1 (lastOf p)) (ms0_2 (lastOf p)) (hs0_2 (lastOf p)) (ms0_3 (lastOf p)) (hs0_3 (lastOf p)) scM0_0 (Memref.isWhole_whole _) scM0_1 (Memref.isWhole_whole _) (fun h => (last_mod p).1 ((hcond0_0 (lastOf p)).mp h)) ((hcond0_1 (lastOf p)).mpr (last_mod p).2) (iblk m c 0 (lastOf p)) (iblk m c 1 (lastOf p)) (outsAt0 (F := Ideal) m c ((lastOf p).val - 1) (Nat.lt_of_le_of_lt (Nat.sub_le _ _) (lastOf p).isLt)).2.2.1 (outsAt0 (F := Ideal) m c ((lastOf p).val - 1) (Nat.lt_of_le_of_lt (Nat.sub_le _ _) (lastOf p).isLt)).2.2.2) (ix2 (0 : Fin 1) cc)).symm
  unfold k0_pay3
  refine (shapeCast_addUnit_apply ![1, 1024] _ _ (ix3 (0 : Fin 1) (0 : Fin 1) cc)).trans (congrArg _ (funext fun a => ?_))
  match a with
  | ⟨0, _⟩ => rfl
  | ⟨1, _⟩ => rfl

/-- The two halves of the table added: the sum of the summands over all rows. -/
theorem halves2 (c : Dev nD) (cc : Fin 1024) (f : Fin 256) :
    Host.reduceAdd (F := Ideal) (out2 m c) (constant (F := Ideal) S_ .f32 0x00000000#32) reducesTo_S2x1024x256_S1024x256_d0 h_S_ (ix2 cc f)
      = ∑ r : Fin 2000000, gAcc m c cc f r.val := by
  simp only [Host.reduceAdd, Ideal.hostReduceAdd_def]
  rw [Ideal.hostReduceAdd_single reducesTo_S2x1024x256_S1024x256_d0 (by decide)]
  refine Eq.trans (congrArg (_ + ·) (Finset.sum_congr rfl fun k _ =>
    (congrArg (out2 m c) (funext fun a => Fin.ext (by match a with | ⟨0, _⟩ => rfl | ⟨1, _⟩ => rfl | ⟨2, _⟩ => rfl))).trans
      (out2_apply m c k cc f))) ?_
  show Ideal.ofBits .f32 0x00000000#32 + ∑ k : Fin 2, runSum (gAcc m c cc f) (250 * k.val + 249) = _
  rw [Ideal.ofBits_zero_f32, zero_add, Fin.sum_univ_two]
  exact runSum_halves _

/-- The two halves of the counts added. -/
theorem halves3 (c : Dev nD) (cc : Fin 1024) :
    Host.reduceAdd (F := Ideal) (out3 m c) (constant (F := Ideal) S_ .f32 0x00000000#32) reducesTo_S2x1x1024_S1x1024_d0 h_S_ (ix2 (0 : Fin 1) cc)
      = ∑ r : Fin 2000000, gCnt m c cc r.val := by
  simp only [Host.reduceAdd, Ideal.hostReduceAdd_def]
  rw [Ideal.hostReduceAdd_single reducesTo_S2x1x1024_S1x1024_d0 (by decide)]
  refine Eq.trans (congrArg (_ + ·) (Finset.sum_congr rfl fun k _ =>
    (congrArg (out3 m c) (funext fun a => Fin.ext (by match a with | ⟨0, _⟩ => rfl | ⟨1, _⟩ => rfl | ⟨2, _⟩ => rfl))).trans
      (out3_apply m c k cc))) ?_
  show Ideal.ofBits .f32 0x00000000#32 + ∑ k : Fin 2, runSum (gCnt m c cc) (250 * k.val + 249) = _
  rw [Ideal.ofBits_zero_f32, zero_add, Fin.sum_univ_two]
  exact runSum_halves _

/-- A summand of the table in the first 128 columns is the weight times the feature, -/
theorem gAcc_lo (c : Dev nD) (cc : Fin 1024) (f : Fin 128) (r : Fin 2000000) :
    gAcc m c cc ⟨f.val, by have := f.isLt; omega⟩ r.val = hot (Tw m c (ix1 r)) cc.val * X m c (ix2 r f) := by
  unfold gAcc
  rw [dif_pos r.isLt]
  unfold augRow
  rw [dif_pos (show f.val < 128 from f.isLt)]

/-- and in the last 128 columns the weight times the feature's square. -/
theorem gAcc_hi (c : Dev nD) (cc : Fin 1024) (f : Fin 128) (r : Fin 2000000) :
    gAcc m c cc ⟨128 + f.val, by have := f.isLt; omega⟩ r.val
      = hot (Tw m c (ix1 r)) cc.val * (X m c (ix2 r f) * X m c (ix2 r f)) := by
  unfold gAcc
  rw [dif_pos r.isLt]
  unfold augRow
  rw [dif_neg (show ¬128 + f.val < 128 by omega)]
  have e : (⟨128 + f.val - 128, by have := f.isLt; omega⟩ : Fin 128) = f := Fin.ext (by show 128 + f.val - 128 = f.val; omega)
  rw [e]

/-- The per-class sums. -/
theorem statS_eq (c : Dev nD) : statS (out2 m c) = sumOf (X m c) (Tw m c) := by
  funext i
  obtain ⟨cc, f, rfl⟩ : ∃ (cc : Fin 1000) (f : Fin 128), i = ix2 cc f := ⟨i 0, i 1, eq_ix2 i⟩
  unfold statS
  rw [extractStridedSlice_apply ![0, 0] _ slices_S1024x256_S1000x128_0_0 (ix2 cc f)
    (ix2 (⟨cc.val, by have := cc.isLt; omega⟩ : Fin 1024) (⟨f.val, by have := f.isLt; omega⟩ : Fin 256))
    (fun a => by
      match a with
      | ⟨0, _⟩ => show cc.val = 0 + cc.val; omega
      | ⟨1, _⟩ => show f.val = 0 + f.val; omega)]
  rw [halves2]
  unfold sumOf classSum
  exact Finset.sum_congr rfl fun r _ => gAcc_lo m c _ f r

/-- The per-class sums of squares. -/
theorem statSS_eq (c : Dev nD) : statSS (out2 m c) = sqSumOf (X m c) (Tw m c) := by
  funext i
  obtain ⟨cc, f, rfl⟩ : ∃ (cc : Fin 1000) (f : Fin 128), i = ix2 cc f := ⟨i 0, i 1, eq_ix2 i⟩
  unfold statSS
  rw [extractStridedSlice_apply ![0, 128] _ slices_S1024x256_S1000x128_0_128 (ix2 cc f)
    (ix2 (⟨cc.val, by have := cc.isLt; omega⟩ : Fin 1024) (⟨128 + f.val, by have := f.isLt; omega⟩ : Fin 256))
    (fun a => by
      match a with
      | ⟨0, _⟩ => show cc.val = 0 + cc.val; omega
      | ⟨1, _⟩ => show 128 + f.val = 128 + f.val; rfl)]
  rw [halves2]
  unfold sqSumOf classSum
  exact Finset.sum_congr rfl fun r _ => gAcc_hi m c _ f r

/-- The per-class counts. -/
theorem statN_eq (c : Dev nD) : statN (out3 m c) = countOf (Tw m c) := by
  funext i
  obtain ⟨cc, rfl⟩ : ∃ cc : Fin 1000, i = ix1 cc := ⟨i 0, eq_ix1 i⟩
  unfold statN
  rw [extractStridedSlice_apply ![0] _ slices_S1024_S1000_0 (ix1 cc)
    (ix1 (⟨cc.val, by have := cc.isLt; omega⟩ : Fin 1024))
    (fun a => by
      match a with
      | ⟨0, _⟩ => show cc.val = 0 + cc.val; omega)]
  rw [shapeCast_dropUnit_apply ![1024] _ shapeCasts_S1x1024_S1024]
  have e : (Fin.cons ⟨0, Nat.one_pos⟩ (ix1 (⟨cc.val, by have := cc.isLt; omega⟩ : Fin 1024)) : S1x1024.Idx)
      = ix2 (0 : Fin 1) (⟨cc.val, by have := cc.isLt; omega⟩ : Fin 1024) :=
    funext fun a => by
      match a with
      | ⟨0, _⟩ => rfl
      | ⟨1, _⟩ => rfl
  rw [e, halves3]
  unfold countOf classCount
  refine Finset.sum_congr rfl fun r _ => ?_
  unfold gCnt
  rw [dif_pos r.isLt]

end Cert.KernelIdeal.Stats

end
-- ==== Proof.RegionRun.lean ====
/-
  From the run of the kernel program's frame to the program's results.

  The region walks a 2 x 250 grid. Its two result arrays, of shapes [2, 1024, 256] and [2, 1, 1024], are written
  back only at the last point of each half, and the block written at the last point of half `p` is block
  `(p, 0, 0)`: so the two blocks tile each array, and each array ends holding, block by block, what the last
  point of that half left in the result's buffer (`out2`, `out3`). The host lines after the region are then
  the statistics `statS`, `statSS`, `statN` of those two arrays followed by the variance formula `tail`.
-/
import proofs.«431004_j56788057588437_3_alg».proof.Proof.After
import Idealize.ShloMosaic.Lib.Pipeline.Value
import Idealize.ShloMosaic.Lib.StableHlo.Run
import Idealize.ShloMosaic.Lib.ValueIdx

noncomputable section

namespace Cert.KernelIdeal.RegionRun

open Idealize.ShloMosaic Idealize.ShloMosaic.TcCoe Idealize.SL.Sem
open Idealize.ShloMosaic.Pipeline (Dat)
open Cert.KernelIdeal Cert.KernelIdeal.Gen Cert.KernelIdeal.After

variable (m : (ℓ : Loc nD τ sig) → Buf (Elt Ideal) ℓ) (ρ : Dev nD → PrngReg)

/-- The index maps of the two result windows, decided once over the 500 grid points: point `t` addresses
    block `(t / 250, 0, 0)`. -/
theorem idx2 : ∀ t : Fin cfg0.N, win0_2.index t 0 = t.val / 250 ∧ win0_2.index t 1 = 0 ∧ win0_2.index t 2 = 0 :=
  (by decide +kernel : ∀ t : Fin grid0.N, win0_2.index t 0 = t.val / 250 ∧ win0_2.index t 1 = 0 ∧ win0_2.index t 2 = 0)

/-- The same for the second result window. -/
theorem idx3 : ∀ t : Fin cfg0.N, win0_3.index t 0 = t.val / 250 ∧ win0_3.index t 1 = 0 ∧ win0_3.index t 2 = 0 :=
  (by decide +kernel : ∀ t : Fin grid0.N, win0_3.index t 0 = t.val / 250 ∧ win0_3.index t 1 = 0 ∧ win0_3.index t 2 = 0)

/-- What the buffers hold after a point depends on the point's position only, not on the proof of its bound. -/
theorem outsAt0_congr (c : Dev nD) (n n' : ℕ) (h : n < cfg0.N) (h' : n' < cfg0.N) (e : n = n') :
    outsAt0 m c n h = outsAt0 m c n' h' := by subst e; rfl

/-- A point that writes back is the last point of its half. -/
theorem lastOf_div (t : Fin cfg0.N) (h249 : t.val % 250 = 249) (p : Fin 2) (hp : p.val = t.val / 250) : lastOf p = t :=
  Fin.ext (by show 250 * p.val + 249 = t.val; rw [hp]; omega)

/-- What a write-back of the first result window writes at a point `t` (necessarily the last point of its half) is
    block `t` of `out2`: entry `(0, a, b)` of the block sits at `(t / 250, a, b)` of the array, and `out2` there is what
    the last point of half `t / 250`, which is `t` itself, left at `(0, a, b)`. -/
theorem flushed2_eq (c : Dev nD) (t : Fin cfg0.N) (hf : (cfg0.win 2).flush t = true) :
    (dats m 0 c).flushed 2 t = ((cfg0.win 2).blk t).view.read (Elt Ideal) (out2 m c) := by
  have h249 : t.val % 250 = 249 := (flush0_2 t).mp hf
  show (cfg0.win 2).cut (grid0.coords t) ((dats m 0 c).after 2 t) = _
  rw [after0_2]
  funext y
  rw [View.read_apply]
  show (outsAt0 m c t.val t.isLt).1 ((cfg0.win 2).xinj (grid0.coords t) y) = out2 m c (((cfg0.win 2).blk t).view.emb y)
  have hi := idx2 t
  have y0 : (y 0).val < 1 := (y 0).isLt
  have e0 : ((((cfg0.win 2).blk t).view.emb y) 0).val = t.val / 250 := by
    show win0_2.index t 0 * 1 + 1 * (y 0).val = _
    rw [hi.1]; omega
  have e1 : ((((cfg0.win 2).blk t).view.emb y) 1).val = (y 1).val := by
    show win0_2.index t 1 * 1024 + 1 * (y 1).val = _
    rw [hi.2.1]; omega
  have e2 : ((((cfg0.win 2).blk t).view.emb y) 2).val = (y 2).val := by
    show win0_2.index t 2 * 256 + 1 * (y 2).val = _
    rw [hi.2.2]; omega
  generalize ((cfg0.win 2).blk t).view.emb y = j at e0 e1 e2
  unfold out2
  rw [outsAt0_congr m c (lastOf (j 0)).val t.val _ t.isLt (congrArg Fin.val (lastOf_div t h249 (j 0) e0))]
  refine congrArg (outsAt0 m c t.val t.isLt).1 (funext fun a => Fin.ext ?_)
  match a with
  | ⟨0, _⟩ => show (y 0).val = 0; omega
  | ⟨1, _⟩ => show (y 1).val = (j 1).val; exact e1.symm
  | ⟨2, _⟩ => show (y 2).val = (j 2).val; exact e2.symm

/-- Every entry `(p, a, b)` of the first result array lies in the block written back at the last point of half `p`. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1024 := (i 1).isLt
  have h2 : (i 2 : Nat) < 256 := (i 2).isLt
  refine ⟨lastOf ⟨(i 0).val, h0⟩, (flush0_2 _).mpr (by show (250 * (i 0).val + 249) % 250 = 249; omega), ?_⟩
  show i ∈ ((View.whole main_v1_0).slice (win0_2.rect (lastOf ⟨(i 0).val, h0⟩))).set
  rw [View.set_slice_whole, Rect.mem_set_unit]
  intro a
  have hi := idx2 (lastOf ⟨(i 0).val, h0⟩)
  have hl : (lastOf ⟨(i 0).val, h0⟩).val / 250 = (i 0).val := by show (250 * (i 0).val + 249) / 250 = _; omega
  match a with
  | ⟨0, _⟩ => show win0_2.index (lastOf ⟨(i 0).val, h0⟩) 0 * 1 ≤ (i 0 : Nat) ∧ (i 0 : Nat) < win0_2.index (lastOf ⟨(i 0).val, h0⟩) 0 * 1 + 1
              rw [hi.1, hl]; omega
  | ⟨1, _⟩ => show win0_2.index (lastOf ⟨(i 0).val, h0⟩) 1 * 1024 ≤ (i 1 : Nat) ∧ (i 1 : Nat) < win0_2.index (lastOf ⟨(i 0).val, h0⟩) 1 * 1024 + 1024
              rw [hi.2.1]; omega
  | ⟨2, _⟩ => show win0_2.index (lastOf ⟨(i 0).val, h0⟩) 2 * 256 ≤ (i 2 : Nat) ∧ (i 2 : Nat) < win0_2.index (lastOf ⟨(i 0).val, h0⟩) 2 * 256 + 256
              rw [hi.2.2]; omega

/-- So the first result array ends holding `out2`. -/
theorem final2 (c : Dev nD) : (dats m 0 c).arrAt 2 cfg0.N = out2 m c :=
  (dats m 0 c).arrAt_eq_of_cover 2 (out2 m c) (flushed2_eq m c) (cover2 c)

/-- The second result window likewise: the write-back at `t` writes block `t` of `out3`. -/
theorem flushed3_eq (c : Dev nD) (t : Fin cfg0.N) (hf : (cfg0.win 3).flush t = true) :
    (dats m 0 c).flushed 3 t = ((cfg0.win 3).blk t).view.read (Elt Ideal) (out3 m c) := by
  have h249 : t.val % 250 = 249 := (flush0_3 t).mp hf
  show (cfg0.win 3).cut (grid0.coords t) ((dats m 0 c).after 3 t) = _
  rw [after0_3]
  funext y
  rw [View.read_apply]
  show (outsAt0 m c t.val t.isLt).2.1 ((cfg0.win 3).xinj (grid0.coords t) y) = out3 m c (((cfg0.win 3).blk t).view.emb y)
  have hi := idx3 t
  have y0 : (y 0).val < 1 := (y 0).isLt
  have y1 : (y 1).val < 1 := (y 1).isLt
  have e0 : ((((cfg0.win 3).blk t).view.emb y) 0).val = t.val / 250 := by
    show win0_3.index t 0 * 1 + 1 * (y 0).val = _
    rw [hi.1]; omega
  have e1 : ((((cfg0.win 3).blk t).view.emb y) 1).val = (y 1).val := by
    show win0_3.index t 1 * 1 + 1 * (y 1).val = _
    rw [hi.2.1]; omega
  have e2 : ((((cfg0.win 3).blk t).view.emb y) 2).val = (y 2).val := by
    show win0_3.index t 2 * 1024 + 1 * (y 2).val = _
    rw [hi.2.2]; omega
  generalize ((cfg0.win 3).blk t).view.emb y = j at e0 e1 e2
  unfold out3
  rw [outsAt0_congr m c (lastOf (j 0)).val t.val _ t.isLt (congrArg Fin.val (lastOf_div t h249 (j 0) e0))]
  refine congrArg (outsAt0 m c t.val t.isLt).2.1 (funext fun a => Fin.ext ?_)
  match a with
  | ⟨0, _⟩ => show (y 0).val = 0; omega
  | ⟨1, _⟩ => show (y 1).val = (j 1).val; exact e1.symm
  | ⟨2, _⟩ => show (y 2).val = (j 2).val; exact e2.symm

/-- Every entry `(p, 0, b)` of the second result array lies in the block written back at the last point of half `p`. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 1 := (i 1).isLt
  have h2 : (i 2 : Nat) < 1024 := (i 2).isLt
  refine ⟨lastOf ⟨(i 0).val, h0⟩, (flush0_3 _).mpr (by show (250 * (i 0).val + 249) % 250 = 249; omega), ?_⟩
  show i ∈ ((View.whole main_v1_1).slice (win0_3.rect (lastOf ⟨(i 0).val, h0⟩))).set
  rw [View.set_slice_whole, Rect.mem_set_unit]
  intro a
  have hi := idx3 (lastOf ⟨(i 0).val, h0⟩)
  have hl : (lastOf ⟨(i 0).val, h0⟩).val / 250 = (i 0).val := by show (250 * (i 0).val + 249) / 250 = _; omega
  match a with
  | ⟨0, _⟩ => show win0_3.index (lastOf ⟨(i 0).val, h0⟩) 0 * 1 ≤ (i 0 : Nat) ∧ (i 0 : Nat) < win0_3.index (lastOf ⟨(i 0).val, h0⟩) 0 * 1 + 1
              rw [hi.1, hl]; omega
  | ⟨1, _⟩ => show win0_3.index (lastOf ⟨(i 0).val, h0⟩) 1 * 1 ≤ (i 1 : Nat) ∧ (i 1 : Nat) < win0_3.index (lastOf ⟨(i 0).val, h0⟩) 1 * 1 + 1
              rw [hi.2.1]; omega
  | ⟨2, _⟩ => show win0_3.index (lastOf ⟨(i 0).val, h0⟩) 2 * 1024 ≤ (i 2 : Nat) ∧ (i 2 : Nat) < win0_3.index (lastOf ⟨(i 0).val, h0⟩) 2 * 1024 + 1024
              rw [hi.2.2]; omega

/-- So the second result array ends holding `out3`. -/
theorem final3 (c : Dev nD) : (dats m 0 c).arrAt 3 cfg0.N = out3 m c :=
  (dats m 0 c).arrAt_eq_of_cover 3 (out3 m c) (flushed3_eq m c) (cover3 c)

/-- The contents the host lines after the region start from, read at the first result array: `out2`. -/
theorem arr2 (c : Dev nD) :
    Pipeline.withArrays (cfgs 0).spec c (V0 m c) (fun w => (dats m 0 c).arrAt w (cfgs 0).N) (Proc.devRef .tc main_v1_0) = out2 m c :=
  (Pipeline.withArrays_arr spec0 launch0.win.arr_inj c _ _ 2).trans (final2 m c)

/-- And at the second result array: `out3`. -/
theorem arr3 (c : Dev nD) :
    Pipeline.withArrays (cfgs 0).spec c (V0 m c) (fun w => (dats m 0 c).arrAt w (cfgs 0).N) (Proc.devRef .tc main_v1_1) = out3 m c :=
  (Pipeline.withArrays_arr spec0 launch0.win.arr_inj c _ _ 3).trans (final3 m c)

/-- The last host line's result: the lines after the region, applied to the two result arrays, are the three
    statistics followed by the variance formula, term for term. -/
theorem tail_eq (c : Dev nD) :
    Pipeline.afterTail₀ cfgs (dats m) 0 (V0 m) [hostOps1] c main_v21
      = tail (statS (out2 m c)) (statSS (out2 m c)) (statN (out3 m c)) := by
  unfold Pipeline.afterTail₀
  show StableHlo.after hostOps1 _ (Proc.devRef .tc main_v21) = _
  after_results
  rw [arr2 m c, arr3 m c]
  rfl

/-- The trailing constant is the zero it is set to. -/
theorem cst5_eq (c : Dev nD) :
    Pipeline.afterTail₀ cfgs (dats m) 0 (V0 m) [hostOps1] c main_cst_5 = constant (F := Ideal) S_ .f32 0x00000000#32 := by
  unfold Pipeline.afterTail₀
  show StableHlo.after hostOps1 _ (Proc.devRef .tc main_cst_5) = _
  after_results

/-- From any memory with zero counters every fair execution of the program terminates, with the result at the variance
    formula of the statistics of `out2` and `out3`, the trailing constant at zero, and both arguments as launched. -/
theorem run_out :
    θ_run (defs (F := Ideal)) (onTc (τ := τ) (main (F := Ideal))) ⟨m, fun _ => 0, ρ⟩ fun r => ∀ c : Dev nD,
      r.2.mem ((c.tc : Thread nD τ).loc main_v21) = tail (statS (out2 m c)) (statSS (out2 m c)) (statN (out3 m c))
      ∧ r.2.mem ((c.tc : Thread nD τ).loc main_cst_5) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v21 (Pipeline.mem_restRefs_of main_v21 (by decide) (by decide))).trans (tail_eq m c),
     ((h c).2 main_cst_5 (Pipeline.mem_restRefs_of main_cst_5 (by decide) (by decide))).trans (cst5_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.RegionRun

end
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.RefStats.lean ====
/-
  The reference's three scatter sums read as the per-class statistics.

  The reference scatters, with the class word of each row as the scatter index, a vector of ones, the rows of `x` and
  the rows of `x * x` into zero tables. An update lands on class row `c` exactly when the row's word, read as a
  signed integer, is `c`; for `c < 1000` that is the word being the word of `c`. So each table entry is the sum over
  all rows of the update weighted by `hot`: the three tables are `countOf`, `sumOf` and `sqSumOf`, and what the
  program computes from them is `tail`.
-/
import proofs.«431004_j56788057588437_3_alg».proof.Defs
import proofs.«431004_j56788057588437_3_alg».proof.Proof.Gen.ReferenceIdeal.Run
import proofs.«431004_j56788057588437_3_alg».proof.Proof.Gen.ReferenceIdeal.Read
import proofs.«431004_j56788057588437_3_alg».proof.Proof.ClassStats
import proofs.«431004_j56788057588437_3_alg».proof.Proof.LibScatterRows
import Idealize.ShloMosaic.Lib.ValueIdx
import Idealize.ShloMosaic.Lib.Pipeline.Value
import Idealize.ShloMosaic.PureOps.Ideal.Laws

noncomputable section

namespace Cert.ReferenceIdeal.RefStats

open Cert.ReferenceIdeal Cert.ReferenceIdeal.Gen Cert.ClassStats Idealize.ShloMosaic Idealize.ShloMosaic.TcCoe Idealize.SL.Sem
open Idealize.ShloMosaic.ValueIdx

/-- The dimension numbers of the two table scatters (rows of `[2000000, 128]` updates into a `[1000, 128]` table). -/
abbrev d2 : ScatterDims S1000x128 S2000000x1 S2000000x128 := scatter_S1000x128_S2000000x1_S2000000x128_1_0_0_1
/-- The dimension numbers of the count scatter (a vector of 2000000 updates into a vector of 1000 entries). -/
abbrev d1 : ScatterDims S1000 S2000000x1 S2000000 := scatter_S1000_S2000000x1_S2000000_n_0_0_1

/-- On the class axis the window of update `j` starts at the class word of `j`'s row, read signed. -/
theorem start2_0 (j : S2000000x128.Idx) (idx : IVec S2000000x1 32) :
    d2.start j idx 0 = (idx (ix2 (j 0) (0 : Fin 1))).toInt := by
  unfold ScatterDims.start
  rw [dif_pos (by decide)]
  refine congrArg BitVec.toInt (congrArg idx ?_)
  funext b
  match b with
  | ⟨0, _⟩ => exact Fin.ext rfl
  | ⟨1, _⟩ => exact Fin.ext rfl

/-- On the feature axis the window starts at zero. -/
theorem start2_1 (j : S2000000x128.Idx) (idx : IVec S2000000x1 32) :
    d2.start j idx 1 = 0 := by
  unfold ScatterDims.start
  rw [dif_neg (by decide)]

/-- The class axis is an inserted one: no window coordinate on it. -/
theorem window2_0 (j : S2000000x128.Idx) : d2.window j 0 = 0 := by
  unfold ScatterDims.window
  rw [dif_neg (by decide)]

/-- On the feature axis the window coordinate is the update's column. -/
theorem window2_1 (j : S2000000x128.Idx) : d2.window j 1 = (j 1).val := by
  unfold ScatterDims.window
  rw [dif_pos (by decide)]
  rfl

/-- For the count scatter likewise: the start is the class word of the update's row, read signed. -/
theorem start1_0 (j : S2000000.Idx) (idx : IVec S2000000x1 32) :
    d1.start j idx 0 = (idx (ix2 (j 0) (0 : Fin 1))).toInt := by
  unfold ScatterDims.start
  rw [dif_pos (by decide)]
  refine congrArg BitVec.toInt (congrArg idx ?_)
  funext b
  match b with
  | ⟨0, _⟩ => exact Fin.ext rfl
  | ⟨1, _⟩ => exact Fin.ext rfl

/-- The count scatter has no window axis. -/
theorem window1_0 (j : S2000000.Idx) : d1.window j 0 = 0 := by
  unfold ScatterDims.window
  rw [dif_neg (by decide)]

/-- A 32-bit word read signed is the class number `c < 1000` exactly when it is the word of `c`. -/
theorem toInt_eq_natCast_iff (w : BitVec 32) (c : Nat) (hc : c < 1000) :
    w.toInt = (c : Int) ↔ w = BitVec.ofNat 32 c := by
  have h : (BitVec.ofNat 32 c).toInt = (c : Int) := by
    rw [BitVec.toInt_eq_toNat_cond, BitVec.toNat_ofNat]
    have : c % 2 ^ 32 = c := Nat.mod_eq_of_lt (by omega)
    rw [this]
    rw [if_pos (by omega)]
  rw [← h]
  exact BitVec.toInt_inj

/-- Update `j` of a table scatter lands on entry `i` exactly when the class word of `j`'s row, read signed, is `i`'s
    class and the columns agree; a word outside `0 .. 999` lands nowhere. -/
theorem resultIdx2_iff (j : S2000000x128.Idx) (idx : IVec S2000000x1 32) (i : S1000x128.Idx) :
    d2.resultIdx? j idx = some i ↔ (idx (ix2 (j 0) (0 : Fin 1))).toInt = ((i 0).val : Int) ∧ j 1 = i 1 := by
  have hi0 : (i 0).val < 1000 := (i 0).isLt
  have hj1 : (j 1).val < 128 := (j 1).isLt
  have hi1 : (i 1).val < 128 := (i 1).isLt
  unfold ScatterDims.resultIdx?
  split_ifs with h
  · rw [Option.some.injEq]
    constructor
    · intro e
      have e0 := congrArg Fin.val (congrFun e 0)
      have e1 := congrArg Fin.val (congrFun e 1)
      simp only [start2_0, start2_1, window2_0, window2_1] at e0 e1
      have h0 := h 0
      simp only [start2_0, window2_0] at h0
      refine ⟨by omega, Fin.ext (by omega)⟩
    · rintro ⟨e0, e1⟩
      funext a
      match a with
      | ⟨0, _⟩ =>
        refine Fin.ext ?_
        show (d2.start j idx 0 + (d2.window j 0 : Int)).toNat = (i 0).val
        rw [start2_0, window2_0, e0]; simp
      | ⟨1, _⟩ =>
        refine Fin.ext ?_
        show (d2.start j idx 1 + (d2.window j 1 : Int)).toNat = (i 1).val
        rw [start2_1, window2_1, e1]; simp
  · constructor
    · intro e; cases e
    · rintro ⟨e0, e1⟩
      exfalso
      apply h
      intro a
      match a with
      | ⟨0, _⟩ =>
        show 0 ≤ d2.start j idx 0 + (d2.window j 0 : Int) ∧ d2.start j idx 0 + (d2.window j 0 : Int) < 1000
        rw [start2_0, window2_0, e0]; omega
      | ⟨1, _⟩ =>
        show 0 ≤ d2.start j idx 1 + (d2.window j 1 : Int) ∧ d2.start j idx 1 + (d2.window j 1 : Int) < 128
        rw [start2_1, window2_1]; omega

/-- Update `j` of the count scatter lands on entry `i` exactly when the class word of row `j`, read signed, is `i`. -/
theorem resultIdx1_iff (j : S2000000.Idx) (idx : IVec S2000000x1 32) (i : S1000.Idx) :
    d1.resultIdx? j idx = some i ↔ (idx (ix2 (j 0) (0 : Fin 1))).toInt = ((i 0).val : Int) := by
  have hi0 : (i 0).val < 1000 := (i 0).isLt
  unfold ScatterDims.resultIdx?
  split_ifs with h
  · rw [Option.some.injEq]
    constructor
    · intro e
      have e0 := congrArg Fin.val (congrFun e 0)
      simp only [start1_0, window1_0] at e0
      have h0 := h 0
      simp only [start1_0, window1_0] at h0
      omega
    · intro e0
      funext a
      match a with
      | ⟨0, _⟩ =>
        refine Fin.ext ?_
        show (d1.start j idx 0 + (d1.window j 0 : Int)).toNat = (i 0).val
        rw [start1_0, window1_0, e0]; simp
  · constructor
    · intro e; cases e
    · intro e0
      exfalso
      apply h
      intro a
      match a with
      | ⟨0, _⟩ =>
        show 0 ≤ d1.start j idx 0 + (d1.window j 0 : Int) ∧ d1.start j idx 0 + (d1.window j 0 : Int) < 1000
        rw [start1_0, window1_0, e0]; omega

/-- The scatter indices are the class words as a column: row `r` reads the word of row `r`. -/
theorem idx_apply (t : IVec S2000000 32) (r : Fin 2000000) :
    broadcastInDim S2000000x1 ![0] bcast_S2000000_S2000000x1_0 t (ix2 r (0 : Fin 1)) = t (ix1 r) :=
  broadcastInDim_apply _ bcast_S2000000_S2000000x1_0 t _ (ix1 r) (fun a => match a with
    | ⟨0, _⟩ => by show r.val = if (2000000 : Nat) = 1 then 0 else r.val; rw [if_neg (by decide)])

/-- The table the sums are scattered into is zero everywhere. -/
theorem zero2_apply (i : S1000x128.Idx) :
    broadcastInDim S1000x128 ![] bcast_S_S1000x128 (constant (F := Ideal) S_ .f32 0x00000000#32) i = (0 : EReal) := by
  rw [broadcastInDim_apply _ bcast_S_S1000x128 _ i (fun a => a.elim0) (fun a => a.elim0)]
  exact Ideal.ofBits_zero_f32

/-- The vector the counts are scattered into is zero everywhere. -/
theorem zero1_apply (i : S1000.Idx) :
    broadcastInDim S1000 ![] bcast_S_S1000 (constant (F := Ideal) S_ .f32 0x00000000#32) i = (0 : EReal) := by
  rw [broadcastInDim_apply _ bcast_S_S1000 _ i (fun a => a.elim0) (fun a => a.elim0)]
  exact Ideal.ofBits_zero_f32

/-- The count scatter's updates are one everywhere. -/
theorem ones_apply (i : S2000000.Idx) :
    broadcastInDim S2000000 ![] bcast_S_S2000000 (constant (F := Ideal) S_ .f32 0x3F800000#32) i = (1 : EReal) := by
  rw [broadcastInDim_apply _ bcast_S_S2000000 _ i (fun a => a.elim0) (fun a => a.elim0)]
  exact IdealRules.sign_bit.ideal_onePat .f32

/-- An update row `r` lands on table entry `(c, f)` exactly when its class word is the word of `c` and the column is `f`. -/
theorem hchar2 (t : IVec S2000000 32) (c : Fin 1000) (f : Fin 128) (r : Fin 2000000) (b : Fin 128) :
    d2.resultIdx? (ix2 r b) (broadcastInDim S2000000x1 ![0] bcast_S2000000_S2000000x1_0 t) = some (ix2 c f)
      ↔ t (ix1 r) = BitVec.ofNat 32 c.val ∧ b = f := by
  rw [resultIdx2_iff]
  show (broadcastInDim S2000000x1 ![0] bcast_S2000000_S2000000x1_0 t (ix2 r (0 : Fin 1))).toInt = ((c.val : Nat) : Int) ∧ b = f ↔ _
  rw [idx_apply, toInt_eq_natCast_iff _ _ c.isLt]

/-- An update `r` lands on vector entry `c` exactly when its class word is the word of `c`. -/
theorem hchar1 (t : IVec S2000000 32) (c : Fin 1000) (r : Fin 2000000) :
    d1.resultIdx? (ix1 r) (broadcastInDim S2000000x1 ![0] bcast_S2000000_S2000000x1_0 t) = some (ix1 c)
      ↔ t (ix1 r) = BitVec.ofNat 32 c.val := by
  rw [resultIdx1_iff]
  show (broadcastInDim S2000000x1 ![0] bcast_S2000000_S2000000x1_0 t (ix2 r (0 : Fin 1))).toInt = ((c.val : Nat) : Int) ↔ _
  rw [idx_apply, toInt_eq_natCast_iff _ _ c.isLt]

/-- The rows of `u` scattered by class word into the zero table, at entry `(c, f)`: the weighted sum over all rows. -/
theorem scatter2_hot (t : IVec S2000000 32) (u : FVec Ideal S2000000x128 .f32) (c : Fin 1000) (f : Fin 128) :
    Host.scatterAdd (F := Ideal) d2
        (broadcastInDim S1000x128 ![] bcast_S_S1000x128 (constant (F := Ideal) S_ .f32 0x00000000#32))
        (broadcastInDim S2000000x1 ![0] bcast_S2000000_S2000000x1_0 t) u (ix2 c f)
      = ∑ r : Fin 2000000, hot (t (ix1 r)) c.val * u (ix2 r f) := by
  have h := Cert.ClassStats.Scatter.scatter2_apply (N := 2000000) (C := 1000) (D := 128) d2
    (broadcastInDim S1000x128 ![] bcast_S_S1000x128 (constant (F := Ideal) S_ .f32 0x00000000#32))
    (broadcastInDim S2000000x1 ![0] bcast_S2000000_S2000000x1_0 t) u c f
    (fun r => t (ix1 r) = BitVec.ofNat 32 c.val) (by intro r b; exact hchar2 t c f r b)
  refine h.trans ?_
  rw [zero2_apply, zero_add]
  refine Finset.sum_congr rfl fun r _ => ?_
  unfold hot
  by_cases hw : t (ix1 r) = BitVec.ofNat 32 c.val
  · rw [if_pos hw, if_pos hw, one_mul]
  · rw [if_neg hw, if_neg hw, zero_mul]

/-- Ones scattered by class word into the zero vector, at entry `c`: the number of rows of class `c`. -/
theorem scatter1_hot (t : IVec S2000000 32) (c : Fin 1000) :
    Host.scatterAdd (F := Ideal) d1
        (broadcastInDim S1000 ![] bcast_S_S1000 (constant (F := Ideal) S_ .f32 0x00000000#32))
        (broadcastInDim S2000000x1 ![0] bcast_S2000000_S2000000x1_0 t)
        (broadcastInDim S2000000 ![] bcast_S_S2000000 (constant (F := Ideal) S_ .f32 0x3F800000#32)) (ix1 c)
      = ∑ r : Fin 2000000, hot (t (ix1 r)) c.val := by
  have h := Cert.ClassStats.Scatter.scatter1_apply (N := 2000000) (C := 1000) d1
    (broadcastInDim S1000 ![] bcast_S_S1000 (constant (F := Ideal) S_ .f32 0x00000000#32))
    (broadcastInDim S2000000x1 ![0] bcast_S2000000_S2000000x1_0 t)
    (broadcastInDim S2000000 ![] bcast_S_S2000000 (constant (F := Ideal) S_ .f32 0x3F800000#32)) c
    (fun r => t (ix1 r) = BitVec.ofNat 32 c.val) (by intro r; exact hchar1 t c r)
  refine h.trans ?_
  rw [zero1_apply, zero_add]
  refine Finset.sum_congr rfl fun r _ => ?_
  rw [ones_apply]
  rfl

/-- From the three statistics to the result: the reference's operations %11 … %24,
    `|(ss - s*s/n) / (n - 1)|` summed over features, then classes, over 1000. -/
def tail (s ss : FVec Ideal S1000x128 .f32) (n : FVec Ideal S1000 .f32) : FVec Ideal S1 .f32 :=
  let n1 : FVec Ideal S1000x1 .f32 := broadcastInDim S1000x1 ![0] bcast_S1000_S1000x1_0 n
  let q : FVec Ideal S1000x128 .f32 :=
    Host.divf (mulf s s) (broadcastInDim S1000x128 ![0, 1] bcast_S1000x1_S1000x128_0_1 n1)
  let one : FVec Ideal S1000x1 .f32 := broadcastInDim S1000x1 ![] bcast_S_S1000x1 (constant (F := Ideal) S_ .f32 0x3F800000#32)
  let v : FVec Ideal S1000x128 .f32 :=
    Host.divf (subf ss q) (broadcastInDim S1000x128 ![0, 1] bcast_S1000x1_S1000x128_0_1 (subf n1 one))
  let r1 : FVec Ideal S1000 .f32 :=
    Host.reduceAdd (F := Ideal) (Host.absf v) (constant (F := Ideal) S_ .f32 0x00000000#32) reducesTo_S1000x128_S1000_d1 h_S_
  let r0 : FVec Ideal S_ .f32 :=
    Host.reduceAdd (F := Ideal) r1 (constant (F := Ideal) S_ .f32 0x00000000#32) reducesTo_S1000_S_d0 h_S_
  shapeCast S1 (Host.divf r0 (constant (F := Ideal) S_ .f32 0x447A0000#32)) shapeCasts_S_S1

/-- The specification's sums at an entry, as the sums the scatters were read as. -/
theorem sumOf_apply (x : FVec Ideal S2000000x128 .f32) (t : IVec S2000000 32) (c : Fin 1000) (f : Fin 128) :
    sumOf x t (ix2 c f) = ∑ r : Fin 2000000, hot (t (ix1 r)) c.val * x (ix2 r f) := rfl

/-- The same for the sums of squares, the square written as the elementwise product. -/
theorem sqSumOf_apply (x : FVec Ideal S2000000x128 .f32) (t : IVec S2000000 32) (c : Fin 1000) (f : Fin 128) :
    sqSumOf x t (ix2 c f) = ∑ r : Fin 2000000, hot (t (ix1 r)) c.val * (mulf x x) (ix2 r f) := rfl

/-- The same for the counts. -/
theorem countOf_apply (t : IVec S2000000 32) (c : Fin 1000) :
    countOf t (ix1 c) = ∑ r : Fin 2000000, hot (t (ix1 r)) c.val := rfl

/-- The reference's sum table is the specification's. -/
theorem v6_eq (x : FVec Ideal S2000000x128 .f32) (t : IVec S2000000 32) :
    Read.val_main_v6 (F := Ideal) x t = sumOf x t := by
  funext i
  obtain ⟨c, f, rfl⟩ : ∃ c f, i = ix2 c f := ⟨i 0, i 1, eq_ix2 i⟩
  exact (scatter2_hot t x c f).trans (sumOf_apply x t c f).symm

/-- The reference's table of sums of squares is the specification's. -/
theorem v10_eq (x : FVec Ideal S2000000x128 .f32) (t : IVec S2000000 32) :
    Read.val_main_v10 (F := Ideal) x t = sqSumOf x t := by
  funext i
  obtain ⟨c, f, rfl⟩ : ∃ c f, i = ix2 c f := ⟨i 0, i 1, eq_ix2 i⟩
  exact (scatter2_hot t (mulf x x) c f).trans (sqSumOf_apply x t c f).symm

/-- The reference's count vector is the specification's. -/
theorem v3_eq (t : IVec S2000000 32) :
    Read.val_main_v3 (F := Ideal) t = countOf t := by
  funext i
  obtain ⟨c, rfl⟩ : ∃ c, i = ix1 c := ⟨i 0, eq_ix1 i⟩
  exact (scatter1_hot t c).trans (countOf_apply t c).symm

/-- The reference's result is `tail` of its three tables. -/
theorem v24_tail (x : FVec Ideal S2000000x128 .f32) (t : IVec S2000000 32) :
    Read.val_main_v24 (F := Ideal) x t
      = tail (Read.val_main_v6 (F := Ideal) x t) (Read.val_main_v10 (F := Ideal) x t) (Read.val_main_v3 (F := Ideal) t) := rfl

/-- The reference's result is `tail` of the specification's three statistics. -/
theorem v24_eq (x : FVec Ideal S2000000x128 .f32) (t : IVec S2000000 32) :
    Read.val_main_v24 (F := Ideal) x t = tail (sumOf x t) (sqSumOf x t) (countOf t) := by
  rw [v24_tail, v6_eq, v10_eq, v3_eq]

/-- Every run of the reference ends with its result at `tail` of the three per-class statistics of its arguments,
    its second result zero and its arguments unchanged. -/
theorem run_stats (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = tail (sumOf (m ((c.tc : Thread nD τ).loc main_arg0)) (m ((c.tc : Thread nD τ).loc main_arg1)))
                 (sqSumOf (m ((c.tc : Thread nD τ).loc main_arg0)) (m ((c.tc : Thread nD τ).loc main_arg1)))
                 (countOf (m ((c.tc : Thread nD τ).loc main_arg1)))
      ∧ r.2.mem ((c.tc : Thread nD τ).loc main_cst_7) = (constant (F := Ideal) S_ .f32 0x00000000#32 : (⟨S_, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((Read.val_main_v24_eq _ _).trans (v24_eq _ _)), (h c).2⟩)
    (Cert.ReferenceIdeal.Value.run (F := Ideal) m ρ)

end Cert.ReferenceIdeal.RefStats

end
-- ==== Proof.lean ====
/-
  The certificate: a per-class variance penalty computed two ways.

  Both programs take `x` (2,000,000 rows of 128 features) and one class word per row, form for every class below
  1000 the sum of its rows, the sum of their squares and their number, and end with the same lines: the variance
  `(ss - s*s/n) / (n - 1)`, its absolute value summed over features and classes, divided by 1000; the second
  result is the constant zero. The reference forms the three statistics by three accumulating scatters, which add
  each row where its class word, read as a signed number, lands, and drop it where that is outside 0..999. The
  kernel walks the rows in 500 blocks of 4000 on a 2 x 250 grid, multiplies the one-hot matrix of the class words
  against `[x | x*x]`, counts the one-hot columns, keeps running totals per half of the grid, and the host adds the
  two halves and cuts classes 0..999 out of the 1024 it carried. Over the extended reals a sum may be regrouped and
  reordered freely, so both are the same weighted sum over all rows, the weight of a row for a class being one when
  its word is the class's word and zero otherwise; no finiteness of `x` is needed.
  The frames of the two kernel programs are the generated ones; the reference's is its run with the results dropped;
  the idealization rewrote nothing.
-/
import proofs.«431004_j56788057588437_3_alg».proof.Defs
import proofs.«431004_j56788057588437_3_alg».proof.Proof.Gen.Kernel
import proofs.«431004_j56788057588437_3_alg».proof.Proof.Gen.Kernel.Skeleton
import proofs.«431004_j56788057588437_3_alg».proof.Proof.Gen.Kernel.Launch
import proofs.«431004_j56788057588437_3_alg».proof.Proof.Gen.Kernel.Points
import proofs.«431004_j56788057588437_3_alg».proof.Proof.Gen.Kernel.Frame
import proofs.«431004_j56788057588437_3_alg».proof.Proof.Gen.KernelIdeal
import proofs.«431004_j56788057588437_3_alg».proof.Proof.Gen.KernelIdeal.Skeleton
import proofs.«431004_j56788057588437_3_alg».proof.Proof.Gen.KernelIdeal.Launch
import proofs.«431004_j56788057588437_3_alg».proof.Proof.Gen.KernelIdeal.Points
import proofs.«431004_j56788057588437_3_alg».proof.Proof.Gen.KernelIdeal.Frame
import proofs.«431004_j56788057588437_3_alg».proof.Proof.Gen.ReferenceIdeal
import proofs.«431004_j56788057588437_3_alg».proof.Proof.Gen.ReferenceIdeal.Run
import proofs.«431004_j56788057588437_3_alg».proof.Proof.Gen.Pre_finite_inputs
import proofs.«431004_j56788057588437_3_alg».proof.Proof.Stats
import proofs.«431004_j56788057588437_3_alg».proof.Proof.RegionRun
import proofs.«431004_j56788057588437_3_alg».proof.Proof.RefStats
import Idealize.ShloMosaic.Adequacy
import Idealize.ShloMosaic.Init

noncomputable section

namespace Cert.Proof

open Idealize.ShloMosaic Idealize.ShloMosaic.TcCoe Idealize.SL.Sem

/-- The two programs end with the same lines: from equal statistics they compute equal results. -/
theorem tails_agree (s ss : FVec Ideal Cert.KernelIdeal.S1000x128 .f32) (n : FVec Ideal Cert.KernelIdeal.S1000 .f32) :
    Cert.KernelIdeal.After.tail s ss n = Cert.ReferenceIdeal.RefStats.tail s ss n := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on `x` and on the class words both programs end at the tail of the per-class statistics:
    the kernel's region and the two host sums after it produce them as running sums over the rows, the reference's
    three scatters as sums over the rows that land on a class; the second result is the zero constant on both sides. -/
theorem algebraic : Cert.algebraic_KernelIdeal_ReferenceIdeal := by
  intro m ρ m' ρ' _ hagree
  refine ⟨fun c => Cert.KernelIdeal.After.tail (Cert.KernelIdeal.After.statS (Cert.KernelIdeal.After.out2 m c))
      (Cert.KernelIdeal.After.statSS (Cert.KernelIdeal.After.out2 m c)) (Cert.KernelIdeal.After.statN (Cert.KernelIdeal.After.out3 m c)),
    fun _ => constant (F := Ideal) Cert.KernelIdeal.S_ .f32 0x00000000#32, Cert.KernelIdeal.RegionRun.run_out m ρ, ?_⟩
  refine (θ_run Cert.ReferenceIdeal.defs _ _).mono (fun _ h c => ⟨(h c).1.trans ?_, (h c).2⟩)
    (Cert.ReferenceIdeal.RefStats.run_stats m' ρ')
  show _ = Cert.KernelIdeal.After.tail (Cert.KernelIdeal.After.statS (Cert.KernelIdeal.After.out2 m c))
      (Cert.KernelIdeal.After.statSS (Cert.KernelIdeal.After.out2 m c)) (Cert.KernelIdeal.After.statN (Cert.KernelIdeal.After.out3 m c))
  rw [(hagree c).1, (hagree c).2, Cert.KernelIdeal.Stats.statS_eq, Cert.KernelIdeal.Stats.statSS_eq, Cert.KernelIdeal.Stats.statN_eq]
  exact (tails_agree _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
